-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x768 : Shape := ⟨3, ![64, 256, 768]⟩
abbrev S64x256 : Shape := ⟨2, ![64, 256]⟩
abbrev S64x256x4 : Shape := ⟨3, ![64, 256, 4]⟩
abbrev S_ : Shape := ⟨0, ![]⟩

class Facts : Prop where
  bcast_S_S64x256x768 : S_.BroadcastsInDim S64x256x768 (![] : Fin 0 → Fin S64x256x768.rank)
  reducesTo_S64x256x768_S_d0_1_2 : S64x256x768.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S64x256x768 .f32) (main_arg1 : FVec F S64x256x768 .f32) (main_arg2 : FVec F S64x256 .f32) (main_arg3 : IVec S64x256x4 32) (main_arg4 : IVec S64x256x4 32) (main_arg5 : IVec S64x256 32) : IVec S_ 1 :=
  let main_v0 : FVec F S64x256x768 .f32 := Host.absf main_arg0
  let main_cst : FVec F S_ .f32 := constant S_ .f32 0x7F800000#32
  let main_v1 : FVec F S64x256x768 .f32 := broadcastInDim S64x256x768 ![] bcast_S_S64x256x768 main_cst
  let main_v2 : IVec S64x256x768 1 := cmpf .olt main_v0 main_v1
  let main_c : IVec S_ 1 := constantI S_ 1 1#1
  let main_v3 : IVec S_ 1 := (fun x v => Host.reduce IntOp.andi x v reducesTo_S64x256x768_S_d0_1_2 h_S_) main_v2 main_c
  let main_v4 : FVec F S64x256x768 .f32 := Host.absf main_arg1
  let main_cst_0 : FVec F S_ .f32 := constant S_ .f32 0x7F800000#32
  let main_v5 : FVec F S64x256x768 .f32 := broadcastInDim S64x256x768 ![] bcast_S_S64x256x768 main_cst_0
  let main_v6 : IVec S64x256x768 1 := cmpf .olt main_v4 main_v5
  let main_c_1 : IVec S_ 1 := constantI S_ 1 1#1
  let main_v7 : IVec S_ 1 := (fun x v => Host.reduce IntOp.andi x v reducesTo_S64x256x768_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  main_v13
-- ==== Kernel.lean ====
abbrev S64x256x768 : Shape := ⟨3, ![64, 256, 768]⟩
abbrev S64x256 : Shape := ⟨2, ![64, 256]⟩
abbrev S64x256x4 : Shape := ⟨3, ![64, 256, 4]⟩
abbrev S64x256x1 : Shape := ⟨3, ![64, 256, 1]⟩
abbrev S64x1x256 : Shape := ⟨3, ![64, 1, 256]⟩
abbrev S64x4x256 : Shape := ⟨3, ![64, 4, 256]⟩
abbrev S64x256x256 : Shape := ⟨3, ![64, 256, 256]⟩
abbrev S64x1x1 : Shape := ⟨3, ![64, 1, 1]⟩
abbrev S1x256x768 : Shape := ⟨3, ![1, 256, 768]⟩
abbrev S1x256x1 : Shape := ⟨3, ![1, 256, 1]⟩
abbrev S1x256x4 : Shape := ⟨3, ![1, 256, 4]⟩
abbrev S1x4x256 : Shape := ⟨3, ![1, 4, 256]⟩
abbrev S1x1x256 : Shape := ⟨3, ![1, 1, 256]⟩
abbrev S1x256x256 : Shape := ⟨3, ![1, 256, 256]⟩
abbrev S1x1x1 : Shape := ⟨3, ![1, 1, 1]⟩
abbrev S256x4 : Shape := ⟨2, ![256, 4]⟩
abbrev S256x1 : Shape := ⟨2, ![256, 1]⟩
abbrev S256x768 : Shape := ⟨2, ![256, 768]⟩
abbrev S256x256 : Shape := ⟨2, ![256, 256]⟩
abbrev S4x256 : Shape := ⟨2, ![4, 256]⟩
abbrev S1x256 : Shape := ⟨2, ![1, 256]⟩
abbrev S256 : Shape := ⟨1, ![256]⟩
abbrev S1 : Shape := ⟨1, ![1]⟩
abbrev S1x1 : Shape := ⟨2, ![1, 1]⟩
abbrev S64 : Shape := ⟨1, ![64]⟩

abbrev nBuf : Space → Nat
  | .hbm => 13
  | .vmem => 18
  | .smem => 0
  | _ => 0

abbrev bufTy : (tb : Table) → Fin (tcTables nBuf tb) → BufTy
  | .hbm, ⟨0, _⟩ => ⟨S64x256x768, .f32⟩
  | .hbm, ⟨1, _⟩ => ⟨S64x256x768, .f32⟩
  | .hbm, ⟨2, _⟩ => ⟨S64x256, .f32⟩
  | .hbm, ⟨3, _⟩ => ⟨S64x256x4, .i32⟩
  | .hbm, ⟨4, _⟩ => ⟨S64x256x4, .i32⟩
  | .hbm, ⟨5, _⟩ => ⟨S64x256, .i32⟩
  | .hbm, ⟨6, _⟩ => ⟨S64x256x1, .f32⟩
  | .hbm, ⟨7, _⟩ => ⟨S64x256, .f32⟩
  | .hbm, ⟨8, _⟩ => ⟨S64x1x256, .f32⟩
  | .hbm, ⟨9, _⟩ => ⟨S64x4x256, .i32⟩
  | .hbm, ⟨10, _⟩ => ⟨S64x256x256, .f32⟩
  | .hbm, ⟨11, _⟩ => ⟨S64x1x1, .f32⟩
  | .hbm, ⟨12, _⟩ => ⟨S64, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x1, .f32⟩
  | .local _ .vmem, ⟨5, _⟩ => ⟨S1x256x1, .f32⟩
  | .local _ .vmem, ⟨6, _⟩ => ⟨S1x256x4, .i32⟩
  | .local _ .vmem, ⟨7, _⟩ => ⟨S1x256x4, .i32⟩
  | .local _ .vmem, ⟨8, _⟩ => ⟨S1x256x4, .i32⟩
  | .local _ .vmem, ⟨9, _⟩ => ⟨S1x256x4, .i32⟩
  | .local _ .vmem, ⟨10, _⟩ => ⟨S1x4x256, .i32⟩
  | .local _ .vmem, ⟨11, _⟩ => ⟨S1x4x256, .i32⟩
  | .local _ .vmem, ⟨12, _⟩ => ⟨S1x1x256, .f32⟩
  | .local _ .vmem, ⟨13, _⟩ => ⟨S1x1x256, .f32⟩
  | .local _ .vmem, ⟨14, _⟩ => ⟨S1x256x256, .f32⟩
  | .local _ .vmem, ⟨15, _⟩ => ⟨S1x256x256, .f32⟩
  | .local _ .vmem, ⟨16, _⟩ => ⟨S1x1x1, .f32⟩
  | .local _ .vmem, ⟨17, _⟩ => ⟨S1x1x1, .f32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S64x256_S64x256x1_0_1 : S64x256.BroadcastsInDim S64x256x1 (![0, 1] : Fin 2 → Fin S64x256x1.rank)
  bcast_S64x256_S64x1x256_0_2 : S64x256.BroadcastsInDim S64x1x256 (![0, 2] : Fin 2 → Fin S64x1x256.rank)
  transposes_S64x256x4_S64x4x256_0_2_1 : S64x256x4.Transposes [0, 2, 1] S64x4x256
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  natLt_1_32 : 1 < 32
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  broadcasts_S256x1_S256x768 : S256x1.Broadcasts S256x768
  bitsLt_bf16_f32 : FTy.bits .bf16 < FTy.bits .f32
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  slices_S4x256_o0_0_S1x256 : S4x256.Slices ![0, 0] S1x256
  broadcasts_S256x1_S256x256 : S256x1.Broadcasts S256x256
  broadcasts_S1x256_S256x256 : S1x256.Broadcasts S256x256
  slices_S4x256_o1_0_S1x256 : S4x256.Slices ![1, 0] S1x256
  slices_S4x256_o2_0_S1x256 : S4x256.Slices ![2, 0] S1x256
  slices_S4x256_o3_0_S1x256 : S4x256.Slices ![3, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  reduces_S256x256_S256 : S256x256.Reduces [1] S256
  shapeCasts_S256_S256x1 : S256.ShapeCasts S256x1
  reduces_S1x256_S1 : S1x256.Reduces [1] S1
  shapeCasts_S1_S1x1 : S1.ShapeCasts S1x1
  broadcasts_S1x1_S256x1 : S1x1.Broadcasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  reduces_S256x1_S1 : S256x1.Reduces [0] S1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S64x1x1_S64 : S64x1x1.ShapeCasts S64
  dot_S256x768_S256x768_S256x256_1_1_0_0_n_n_wf : DotDims.WF S256x768 S256x768 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S64x256x768.size a
  hwx0_0 : ∀ i : grid0.Coords, EltTy.bits .f32 = 32 ∨ (Rect.block (s := S64x256x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S64x256x768.size a
  hwx0_1 : ∀ i : grid0.Coords, EltTy.bits .f32 = 32 ∨ (Rect.block (s := S64x256x768) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S64x256x1.size a
  hwx0_2 : ∀ i : grid0.Coords, EltTy.bits .f32 = 32 ∨ (Rect.block (s := S64x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4.size a ≤ S64x256x4.size a
  hwx0_3 : ∀ i : grid0.Coords, EltTy.bits .i32 = 32 ∨ (Rect.block (s := S64x256x4) S1x256x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4.size a ≤ S64x256x4.size a
  hwx0_4 : ∀ i : grid0.Coords, EltTy.bits .i32 = 32 ∨ (Rect.block (s := S64x256x4) S1x256x4.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x256.size a ≤ S64x4x256.size a
  hwx0_5 : ∀ i : grid0.Coords, EltTy.bits .i32 = 32 ∨ (Rect.block (s := S64x4x256) S1x4x256.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S64x256x256.size a
  hwx0_7 : ∀ i : grid0.Coords, EltTy.bits .f32 = 32 ∨ (Rect.block (s := S64x256x256) S1x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S64x1x1.size a
  hwx0_8 : ∀ i : grid0.Coords, EltTy.bits .f32 = 32 ∨ (Rect.block (s := S64x1x1) S1x1x1.size (cc0_transform_8 i) (hinb0_8 i)).WholeWords (EltTy.packing .f32)

variable [Facts₀]

def dot_S256x768_S256x768_S256x256_1_1_0_0_n_n : DotDims S256x768 S256x768 S256x256 where
  lhsContracting := [1]
  rhsContracting := [1]
  lhsNonContracting := [0]
  rhsNonContracting := [0]
  lhsBatch := []
  rhsBatch := []
  wf := dot_S256x768_S256x768_S256x256_1_1_0_0_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1x256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x256x768 : Shape := ⟨3, ![64, 256, 768]⟩
abbrev S64x256 : Shape := ⟨2, ![64, 256]⟩
abbrev S64x256x4 : Shape := ⟨3, ![64, 256, 4]⟩
abbrev S_ : Shape := ⟨0, ![]⟩
abbrev S64x256x1 : Shape := ⟨3, ![64, 256, 1]⟩
abbrev S64x256x256 : Shape := ⟨3, ![64, 256, 256]⟩
abbrev S64x256x1x4 : Shape := ⟨4, ![64, 256, 1, 4]⟩
abbrev S64x1x256x4 : Shape := ⟨4, ![64, 1, 256, 4]⟩
abbrev S64x256x256x4 : Shape := ⟨4, ![64, 256, 256, 4]⟩
abbrev S64x1x256 : Shape := ⟨3, ![64, 1, 256]⟩
abbrev S64 : Shape := ⟨1, ![64]⟩
abbrev S64x1 : Shape := ⟨2, ![64, 1]⟩

abbrev nBuf : Space → Nat
  | .hbm => 76
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S64x256x768, .f32⟩
  | .hbm, ⟨2, _⟩ => ⟨S64x256, .f32⟩
  | .hbm, ⟨3, _⟩ => ⟨S64x256x4, .i32⟩
  | .hbm, ⟨4, _⟩ => ⟨S64x256x4, .i32⟩
  | .hbm, ⟨5, _⟩ => ⟨S64x256, .i32⟩
  | .hbm, ⟨6, _⟩ => ⟨S_, .i32⟩
  | .hbm, ⟨7, _⟩ => ⟨S64x256x4, .i32⟩
  | .hbm, ⟨8, _⟩ => ⟨S64x256x4, .i1⟩
  | .hbm, ⟨9, _⟩ => ⟨S_, .i1⟩
  | .hbm, ⟨10, _⟩ => ⟨S64x256, .i1⟩
  | .hbm, ⟨11, _⟩ => ⟨S64x256, .i1⟩
  | .hbm, ⟨12, _⟩ => ⟨S64x256, .f32⟩
  | .hbm, ⟨13, _⟩ => ⟨S64x256x1, .f32⟩
  | .hbm, ⟨14, _⟩ => ⟨S64x256x768, .f32⟩
  | .hbm, ⟨15, _⟩ => ⟨S64x256x768, .f32⟩
  | .hbm, ⟨16, _⟩ => ⟨S_, .i32⟩
  | .hbm, ⟨17, _⟩ => ⟨S64x256x4, .i32⟩
  | .hbm, ⟨18, _⟩ => ⟨S64x256x4, .i1⟩
  | .hbm, ⟨19, _⟩ => ⟨S_, .i1⟩
  | .hbm, ⟨20, _⟩ => ⟨S64x256, .i1⟩
  | .hbm, ⟨21, _⟩ => ⟨S64x256, .i1⟩
  | .hbm, ⟨22, _⟩ => ⟨S64x256, .f32⟩
  | .hbm, ⟨23, _⟩ => ⟨S64x256x1, .f32⟩
  | .hbm, ⟨24, _⟩ => ⟨S64x256x768, .f32⟩
  | .hbm, ⟨25, _⟩ => ⟨S64x256x768, .f32⟩
  | .hbm, ⟨26, _⟩ => ⟨S64x256x256, .f32⟩
  | .hbm, ⟨27, _⟩ => ⟨S64x256x1x4, .i32⟩
  | .hbm, ⟨28, _⟩ => ⟨S64x1x256x4, .i32⟩
  | .hbm, ⟨29, _⟩ => ⟨S64x256x256x4, .i32⟩
  | .hbm, ⟨30, _⟩ => ⟨S64x256x256x4, .i32⟩
  | .hbm, ⟨31, _⟩ => ⟨S64x256x256x4, .i1⟩
  | .hbm, ⟨32, _⟩ => ⟨S_, .i1⟩
  | .hbm, ⟨33, _⟩ => ⟨S64x256x256, .i1⟩
  | .hbm, ⟨34, _⟩ => ⟨S64x256x256, .f32⟩
  | .hbm, ⟨35, _⟩ => ⟨S_, .f32⟩
  | .hbm, ⟨36, _⟩ => ⟨S64x256x256, .f32⟩
  | .hbm, ⟨37, _⟩ => ⟨S64x256x256, .f32⟩
  | .hbm, ⟨38, _⟩ => ⟨S_, .f32⟩
  | .hbm, ⟨39, _⟩ => ⟨S64x256x256, .f32⟩
  | .hbm, ⟨40, _⟩ => ⟨S64x256x256, .f32⟩
  | .hbm, ⟨41, _⟩ => ⟨S64x256x256, .f32⟩
  | .hbm, ⟨42, _⟩ => ⟨S64x256, .f32⟩
  | .hbm, ⟨43, _⟩ => ⟨S64x1x256, .f32⟩
  | .hbm, ⟨44, _⟩ => ⟨S64x256x256, .f32⟩
  | .hbm, ⟨45, _⟩ => ⟨S64x256x256, .f32⟩
  | .hbm, ⟨46, _⟩ => ⟨S_, .f32⟩
  | .hbm, ⟨47, _⟩ => ⟨S64x256, .f32⟩
  | .hbm, ⟨48, _⟩ => ⟨S64x256, .f32⟩
  | .hbm, ⟨49, _⟩ => ⟨S_, .f32⟩
  | .hbm, ⟨50, _⟩ => ⟨S64, .f32⟩
  | .hbm, ⟨51, _⟩ => ⟨S64x1, .f32⟩
  | .hbm, ⟨52, _⟩ => ⟨S_, .f32⟩
  | .hbm, ⟨53, _⟩ => ⟨S64x256, .f32⟩
  | .hbm, ⟨54, _⟩ => ⟨S64x256, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S_, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S_, .f32⟩
  | .hbm, ⟨65, _⟩ => ⟨S64x1, .f32⟩
  | .hbm, ⟨66, _⟩ => ⟨S64x1, .f32⟩
  | .hbm, ⟨67, _⟩ => ⟨S64x256, .f32⟩
  | .hbm, ⟨68, _⟩ => ⟨S64x256, .f32⟩
  | .hbm, ⟨69, _⟩ => ⟨S_, .f32⟩
  | .hbm, ⟨70, _⟩ => ⟨S64x256, .f32⟩
  | .hbm, ⟨71, _⟩ => ⟨S64x256, .f32⟩
  | .hbm, ⟨72, _⟩ => ⟨S64x256, .f32⟩
  | .hbm, ⟨73, _⟩ => ⟨S64x256, .f32⟩
  | .hbm, ⟨74, _⟩ => ⟨S_, .f32⟩
  | .hbm, ⟨75, _⟩ => ⟨S64, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  bcast_S_S64x256x4 : S_.BroadcastsInDim S64x256x4 (![] : Fin 0 → Fin S64x256x4.rank)
  reducesTo_S64x256x4_S64x256_d2 : S64x256x4.ReducesTo [2] S64x256
  h_S_ : 0 < S_.numel
  bcast_S64x256_S64x256x1_0_1 : S64x256.BroadcastsInDim S64x256x1 (![0, 1] : Fin 2 → Fin S64x256x1.rank)
  bcast_S64x256x1_S64x256x768_0_1_2 : S64x256x1.BroadcastsInDim S64x256x768 (![0, 1, 2] : Fin 3 → Fin S64x256x768.rank)
  bcast_S64x256x4_S64x256x1x4_0_1_3 : S64x256x4.BroadcastsInDim S64x256x1x4 (![0, 1, 3] : Fin 3 → Fin S64x256x1x4.rank)
  bcast_S64x256x4_S64x1x256x4_0_2_3 : S64x256x4.BroadcastsInDim S64x1x256x4 (![0, 2, 3] : Fin 3 → Fin S64x1x256x4.rank)
  bcast_S64x256x1x4_S64x256x256x4_0_1_2_3 : S64x256x1x4.BroadcastsInDim S64x256x256x4 (![0, 1, 2, 3] : Fin 4 → Fin S64x256x256x4.rank)
  bcast_S64x1x256x4_S64x256x256x4_0_1_2_3 : S64x1x256x4.BroadcastsInDim S64x256x256x4 (![0, 1, 2, 3] : Fin 4 → Fin S64x256x256x4.rank)
  reducesTo_S64x256x256x4_S64x256x256_d3 : S64x256x256x4.ReducesTo [3] S64x256x256
  bcast_S_S64x256x256 : S_.BroadcastsInDim S64x256x256 (![] : Fin 0 → Fin S64x256x256.rank)
  bcast_S64x256_S64x1x256_0_2 : S64x256.BroadcastsInDim S64x1x256 (![0, 2] : Fin 2 → Fin S64x1x256.rank)
  bcast_S64x1x256_S64x256x256_0_1_2 : S64x1x256.BroadcastsInDim S64x256x256 (![0, 1, 2] : Fin 3 → Fin S64x256x256.rank)
  reducesTo_S64x256x256_S64x256_d2 : S64x256x256.ReducesTo [2] S64x256
  reducesTo_S64x256_S64_d1 : S64x256.ReducesTo [1] S64
  bcast_S64_S64x1_0 : S64.BroadcastsInDim S64x1 (![0] : Fin 1 → Fin S64x1.rank)
  bcast_S_S64x256 : S_.BroadcastsInDim S64x256 (![] : Fin 0 → Fin S64x256.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  dot_S64x256x768_S64x256x768_S64x256x256_2_2_1_1_0_0_wf : DotDims.WF S64x256x768 S64x256x768 S64x256x256 [2] [2] [1] [1] [0] [0]

variable [Facts₀]

def dot_S64x256x768_S64x256x768_S64x256x256_2_2_1_1_0_0 : DotDims S64x256x768 S64x256x768 S64x256x256 where
  lhsContracting := [2]
  rhsContracting := [2]
  lhsNonContracting := [1]
  rhsNonContracting := [1]
  lhsBatch := [0]
  rhsBatch := [0]
  wf := dot_S64x256x768_S64x256x768_S64x256x256_2_2_1_1_0_0_wf

class Facts : Prop extends Facts₀ where

variable [Facts]
-- ==== Proof.Scoring.lean ====
/-
  The two results of the BM25-like scoring layer as functions of the argument arrays, at the extended reals.

  For one batch: the term-overlap matrix O(q, d) = sum over h of (Q(q, h) * live_q(q)) * (D(d, h) * live_d(d)), where
  live is 0 for a window whose four ids are all zero and 1 otherwise; the exact-match matrix E(q, d), 1 where the
  four ids of query window q and document window d agree and 0 otherwise; the blended matrix
  B(q, d) = (O(q, d) * a + E(q, d) * b) * t(d) with t the document term frequencies; its row sums x(q); the document
  length L = sum over d of t(d); the term weight x(q) * c / ((x(q) + k * (e + (p * L) / v)) + eps); and the score, the
  sum over q of w(q) times the term weight. The constants a, b, c, p, v, e, k, eps are float words shared by both
  programs and are never evaluated.
-/
import Idealize.ShloMosaic.PureOps.Ideal
import Idealize.ShloMosaic.Lib.ValueIdx

noncomputable section

namespace Cert.Scoring

open Idealize.ShloMosaic Idealize.ShloMosaic.ValueIdx

/-- 0 for a window of four ids that are all zero, 1 otherwise. -/
def live (w : Fin 4 → BitVec 32) : EReal := if ∀ k, w k = 0#32 then 0 else 1

/-- 1 where two windows of four ids agree id by id, 0 otherwise. -/
def same (u v : Fin 4 → BitVec 32) : EReal := if ∀ k, u k = v k then 1 else 0

/-- The shared float words. -/
abbrev cOverlap : EReal := Ideal.ofBits .f32 0x39088889#32
abbrev cMatch : EReal := Ideal.ofBits .f32 0x3F666666#32
abbrev cNum : EReal := Ideal.ofBits .f32 0x3F8CCCCD#32
abbrev cLen : EReal := Ideal.ofBits .f32 0x3F99999A#32
abbrev cAvg : EReal := Ideal.ofBits .f32 0x42480000#32
abbrev cOff : EReal := Ideal.ofBits .f32 0xBE4CCCCD#32
abbrev cK : EReal := Ideal.ofBits .f32 0x3DCCCCCD#32
abbrev cEps : EReal := Ideal.ofBits .f32 0x322BCC77#32

/-- The term overlap of query window `q` and document window `d`: the masked rows' dot product. -/
def overlap (Q D : Fin 256 → Fin 768 → EReal) (mq md : Fin 256 → EReal) (q d : Fin 256) : EReal :=
  ∑ h : Fin 768, (Q q h * mq q) * (D d h * md d)

/-- The blended term frequency, weighted by the document term frequency. -/
def blended (O E : Fin 256 → Fin 256 → EReal) (t : Fin 256 → EReal) (q d : Fin 256) : EReal :=
  (O q d * cOverlap + E q d * cMatch) * t d

/-- The term weight of one query window from its expanded term frequency `x` and the document length `L`. -/
def termWeight (x L : EReal) : EReal :=
  Ideal.div (x * cNum) ((x + cK * (cOff + Ideal.div (cLen * L) cAvg)) + cEps)

/-- The score from the blended matrix, the document term frequencies and the query term weights. -/
def scoreFrom (B : Fin 256 → Fin 256 → EReal) (t w : Fin 256 → EReal) : EReal :=
  ∑ q : Fin 256, w q * termWeight (∑ d : Fin 256, B q d) (∑ d : Fin 256, t d)

/-! ## Over the whole arrays -/

abbrev Rep : Shape := ⟨3, ![64, 256, 768]⟩
abbrev Ids : Shape := ⟨3, ![64, 256, 4]⟩
abbrev Mat : Shape := ⟨2, ![64, 256]⟩
abbrev Ovl : Shape := ⟨3, ![64, 256, 256]⟩
abbrev Sc : Shape := ⟨1, ![64]⟩

/-- A window's liveness in batch `b`. -/
def liveAt (ids : Ids.Idx → BitVec 32) (b : Fin 64) (r : Fin 256) : EReal := live fun k => ids (ix3 b r k)

/-- Batch `b`'s overlap matrix. -/
def overlapAt (a0 a1 : Rep.Idx → EReal) (a3 a4 : Ids.Idx → BitVec 32) (b : Fin 64) (q d : Fin 256) : EReal :=
  overlap (fun q h => a0 (ix3 b q h)) (fun d h => a1 (ix3 b d h)) (liveAt a3 b) (liveAt a4 b) q d

/-- The document term frequency as a real. -/
def freqAt (a5 : Mat.Idx → BitVec 32) (b : Fin 64) (d : Fin 256) : EReal := (((a5 (ix2 b d)).toInt : ℝ) : EReal)

/-- Batch `b`'s score. -/
def scoreAt (a0 a1 : Rep.Idx → EReal) (a2 : Mat.Idx → EReal) (a3 a4 : Ids.Idx → BitVec 32) (a5 : Mat.Idx → BitVec 32)
    (b : Fin 64) : EReal :=
  scoreFrom (blended (overlapAt a0 a1 a3 a4 b) (fun q d => same (fun k => a3 (ix3 b q k)) (fun k => a4 (ix3 b d k))) (freqAt a5 b))
    (freqAt a5 b) (fun q => a2 (ix2 b q))

/-- The overlap array. -/
def overlapAll (a0 a1 : Rep.Idx → EReal) (a3 a4 : Ids.Idx → BitVec 32) : Ovl.Idx → EReal :=
  fun j => overlapAt a0 a1 a3 a4 (j 0) (j 1) (j 2)

/-- The score array. -/
def scoreAll (a0 a1 : Rep.Idx → EReal) (a2 : Mat.Idx → EReal) (a3 a4 : Ids.Idx → BitVec 32) (a5 : Mat.Idx → BitVec 32) :
    Sc.Idx → EReal :=
  fun j => scoreAt a0 a1 a2 a3 a4 a5 (j 0)

theorem overlapAll_apply (a0 a1 : Rep.Idx → EReal) (a3 a4 : Ids.Idx → BitVec 32) (b : Fin 64) (q d : Fin 256) :
    overlapAll a0 a1 a3 a4 (ix3 b q d) = overlapAt a0 a1 a3 a4 b q d := rfl

theorem scoreAll_apply (a0 a1 : Rep.Idx → EReal) (a2 : Mat.Idx → EReal) (a3 a4 : Ids.Idx → BitVec 32) (a5 : Mat.Idx → BitVec 32)
    (b : Fin 64) : scoreAll a0 a1 a2 a3 a4 a5 (ix1 b) = scoreAt a0 a1 a2 a3 a4 a5 b := rfl

end Cert.Scoring

end
-- ==== Proof.BlockOverlap.lean ====
/-
  One grid point of the kernel: the two window masks and the masked matrix product, read at an index.
-/
import proofs.«174457_j20572893348512_1_alg».proof.Proof.Gen.KernelIdeal.Skeleton
import proofs.«174457_j20572893348512_1_alg».proof.Proof.Scoring
import Idealize.ShloMosaic.Lib.ValueIdx
import Idealize.ShloMosaic.Lib.ValueLayout
import Idealize.ShloMosaic.Lib.Pipeline.Value
import Idealize.ShloMosaic.PureOps.Ideal.Laws

noncomputable section

namespace Cert.BlockOverlap

open Idealize.ShloMosaic Idealize.ShloMosaic.ValueIdx Cert.KernelIdeal Cert.KernelIdeal.Gen

/-! ## The window masks -/

/-- The complement of a one-bit condition, widened to a word and read signed: 0 where it holds, 1 where it does not. -/
theorem notBit_toInt (b : BitVec 1) : (BitVec.setWidth 32 (IntOp.xori b 1#1)).toInt = if b = 1#1 then 0 else 1 := by
  revert b; decide

/-- A conjunction of one-bit conditions holds exactly when both do. -/
theorem and_bits (c d : BitVec 1) : IntOp.andi c d = 1#1 ↔ c = 1#1 ∧ d = 1#1 := by
  revert c d; decide

/-- A comparison for equality holds exactly when the words are equal. -/
theorem eq_bit (x y : BitVec 32) : IntOp.cmpi .eq x y = 1#1 ↔ x = y := by
  show BitVec.ofBool (x == y) = 1#1 ↔ x = y
  by_cases h : x = y
  · rw [beq_iff_eq.mpr h]; exact ⟨fun _ => h, fun _ => rfl⟩
  · rw [beq_eq_false_iff_ne.mpr h]; exact ⟨fun e => absurd e (by decide), fun e => absurd e h⟩

/-- The mask word of a window: the complement of the conjunction of four one-bit conditions, widened to a word and
    read signed, is 0 when all four hold and 1 otherwise. -/
theorem maskWord (c0 c1 c2 c3 : BitVec 1) (P : Prop) {dP : Decidable P}
    (h : (c0 = 1#1 ∧ c1 = 1#1 ∧ c2 = 1#1 ∧ c3 = 1#1) ↔ P) :
    (((BitVec.setWidth 32 (IntOp.xori (IntOp.andi (IntOp.andi (IntOp.andi c0 c1) c2) c3) 1#1)).toInt : ℝ) : EReal)
      = @ite EReal P dP 0 1 := by
  have hc : IntOp.andi (IntOp.andi (IntOp.andi c0 c1) c2) c3 = 1#1 ↔ P := by
    rw [and_bits, and_bits, and_bits, ← h]
    exact ⟨fun ⟨⟨⟨a, b⟩, c⟩, d⟩ => ⟨a, b, c, d⟩, fun ⟨a, b, c, d⟩ => ⟨⟨⟨a, b⟩, c⟩, d⟩⟩
  rw [notBit_toInt]
  by_cases hP : P
  · rw [if_pos hP, if_pos (hc.mpr hP), Int.cast_zero, EReal.coe_zero]
  · rw [if_neg hP, if_neg (fun e => hP (hc.mp e)), Int.cast_one, EReal.coe_one]

/-- Column `k` of a block of ids with its unit axis dropped, read at row `r`: the block's id `(0, r, k)`. -/
theorem idColumn (v : Vec Ideal S1x256x4 .i32) (o : Nat) (k : Fin 4) (ho : k.val = o) (h : S256x4.Slices ![0, o] S256x1)
    (r : Fin 256) (u : Fin 1) :
    extractStridedSlice S256x1 ![0, o] (shapeCast S256x4 v shapeCasts_S1x256x4_S256x4) h (ix2 r u) = v (ix3 (0 : Fin 1) r k) := by
  refine (slice2_axis1_apply o _ h r u k (by have := u.isLt; omega)).trans ?_
  exact shapeCast_1ab_ab_apply v _ r k

/-- The mask of a block of ids at row `r`: 0 where the window's four ids are all zero, else 1. -/
theorem mask_apply (v : Vec Ideal S1x256x4 .i32) (r : Fin 256) (u : Fin 1) :
    (sitofp (F := Ideal) .f32 (extui 32 (xori (andi (andi (andi
        (cmpi .eq (extractStridedSlice S256x1 ![0, 0] (shapeCast S256x4 v shapeCasts_S1x256x4_S256x4) slices_S256x4_o0_0_S256x1) (broadcast S256x1 0#32))
        (cmpi .eq (extractStridedSlice S256x1 ![0, 1] (shapeCast S256x4 v shapeCasts_S1x256x4_S256x4) slices_S256x4_o0_1_S256x1) (broadcast S256x1 0#32)))
        (cmpi .eq (extractStridedSlice S256x1 ![0, 2] (shapeCast S256x4 v shapeCasts_S1x256x4_S256x4) slices_S256x4_o0_2_S256x1) (broadcast S256x1 0#32)))
        (cmpi .eq (extractStridedSlice S256x1 ![0, 3] (shapeCast S256x4 v shapeCasts_S1x256x4_S256x4) slices_S256x4_o0_3_S256x1) (broadcast S256x1 0#32)))
        (constantI S256x1 1 1#1)) natLt_1_32) : FVec Ideal S256x1 .f32) (ix2 r u)
      = Cert.Scoring.live (fun k => v (ix3 (0 : Fin 1) r k)) := by
  show (((BitVec.setWidth 32 (IntOp.xori (IntOp.andi (IntOp.andi (IntOp.andi
      (IntOp.cmpi .eq (extractStridedSlice S256x1 ![0, 0] (shapeCast S256x4 v shapeCasts_S1x256x4_S256x4) slices_S256x4_o0_0_S256x1 (ix2 r u)) 0#32)
      (IntOp.cmpi .eq (extractStridedSlice S256x1 ![0, 1] (shapeCast S256x4 v shapeCasts_S1x256x4_S256x4) slices_S256x4_o0_1_S256x1 (ix2 r u)) 0#32))
      (IntOp.cmpi .eq (extractStridedSlice S256x1 ![0, 2] (shapeCast S256x4 v shapeCasts_S1x256x4_S256x4) slices_S256x4_o0_2_S256x1 (ix2 r u)) 0#32))
      (IntOp.cmpi .eq (extractStridedSlice S256x1 ![0, 3] (shapeCast S256x4 v shapeCasts_S1x256x4_S256x4) slices_S256x4_o0_3_S256x1 (ix2 r u)) 0#32))
      1#1)).toInt : ℝ) : EReal) = _
  rw [idColumn v 0 0 rfl, idColumn v 1 1 rfl, idColumn v 2 2 rfl, idColumn v 3 3 rfl]
  unfold Cert.Scoring.live
  refine maskWord _ _ _ _ _ ?_
  rw [eq_bit, eq_bit, eq_bit, eq_bit]
  constructor
  · rintro ⟨a, b, c, d⟩ k
    match k with
    | ⟨0, _⟩ => exact a
    | ⟨1, _⟩ => exact b
    | ⟨2, _⟩ => exact c
    | ⟨3, _⟩ => exact d
  · exact fun h => ⟨h 0, h 1, h 2, h 3⟩

/-- The query mask of a block at row `r`: 0 where the window's four ids are all zero, else 1. -/
theorem live_q (v0 : Vec Ideal S1x256x4 .i32) (r : Fin 256) (u : Fin 1) :
    k0_pay4 (F := Ideal) v0 (ix2 r u) = Cert.Scoring.live (fun k => v0 (ix3 (0 : Fin 1) r k)) := by
  unfold k0_pay4 k0_pay3
  exact mask_apply v0 r u

/-- The document mask of a block at row `r`. -/
theorem live_d (v2 : Vec Ideal S1x256x4 .i32) (r : Fin 256) (u : Fin 1) :
    k0_pay5 (F := Ideal) v2 (ix2 r u) = Cert.Scoring.live (fun k => v2 (ix3 (0 : Fin 1) r k)) := by
  unfold k0_pay5
  exact mask_apply v2 r u

/-! ## The masked matrix product -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the result's row … -/
theorem lhs_axis0 (i : S256x256.Idx) (c : dot_S256x768_S256x768_S256x256_1_1_0_0_n_n.contr.Idx) :
    (dot_S256x768_S256x768_S256x256_1_1_0_0_n_n.lhsIdx i c 0).val = (i 0).val := by
  unfold DotDims.lhsIdx
  rw [dif_neg (show ¬(0 : Fin S256x768.rank) ∈ dot_S256x768_S256x768_S256x256_1_1_0_0_n_n.lhsBatch by decide),
    dif_pos (show (0 : Fin S256x768.rank) ∈ dot_S256x768_S256x768_S256x256_1_1_0_0_n_n.lhsNonContracting by decide)]
  rfl
/-- … and its column the contraction position. -/
theorem lhs_axis1 (i : S256x256.Idx) (c : dot_S256x768_S256x768_S256x256_1_1_0_0_n_n.contr.Idx) :
    (dot_S256x768_S256x768_S256x256_1_1_0_0_n_n.lhsIdx i c 1).val = (c ⟨0, by decide⟩).val :=
  dot_S256x768_S256x768_S256x256_1_1_0_0_n_n.lhsIdx_val_of_single rfl i c
/-- The right operand's row is the result's column … -/
theorem rhs_axis0 (i : S256x256.Idx) (c : dot_S256x768_S256x768_S256x256_1_1_0_0_n_n.contr.Idx) :
    (dot_S256x768_S256x768_S256x256_1_1_0_0_n_n.rhsIdx i c 0).val = (i 1).val := by
  unfold DotDims.rhsIdx
  rw [dif_neg (show ¬(0 : Fin S256x768.rank) ∈ dot_S256x768_S256x768_S256x256_1_1_0_0_n_n.rhsBatch by decide),
    dif_pos (show (0 : Fin S256x768.rank) ∈ dot_S256x768_S256x768_S256x256_1_1_0_0_n_n.rhsNonContracting by decide)]
  rfl
/-- … and its column the contraction position. -/
theorem rhs_axis1 (i : S256x256.Idx) (c : dot_S256x768_S256x768_S256x256_1_1_0_0_n_n.contr.Idx) :
    (dot_S256x768_S256x768_S256x256_1_1_0_0_n_n.rhsIdx i c 1).val = (c ⟨0, by decide⟩).val :=
  dot_S256x768_S256x768_S256x256_1_1_0_0_n_n.rhsIdx_val_of_single rfl i c

/-- The matrix unit's product of the masked blocks at (q, d): the masked rows' dot product. -/
theorem overlap_pay (v36 v39 : FVec Ideal S256x1 .f32) (v40 v44 : Vec Ideal S1x256x768 .f32) (q d : Fin 256) :
    k0_pay6 v36 v39 v40 v44 (ix2 q d)
      = Cert.Scoring.overlap (fun q h => v40 (ix3 (0 : Fin 1) q h)) (fun d h => v44 (ix3 (0 : Fin 1) d h))
          (fun q => v36 (ix2 q (0 : Fin 1))) (fun d => v39 (ix2 d (0 : Fin 1))) q d := by
  unfold k0_pay6
  refine (Ideal.matmul_constant_zero_apply dot_S256x768_S256x768_S256x256_1_1_0_0_n_n none _ _ (ix2 q d)).trans ?_
  unfold Cert.Scoring.overlap
  rw [← Equiv.sum_comp (contrEquiv1 dot_S256x768_S256x768_S256x256_1_1_0_0_n_n 768 rfl rfl).symm]
  refine Finset.sum_congr rfl fun h _ => ?_
  have hk := contrEquiv1_symm_val dot_S256x768_S256x768_S256x256_1_1_0_0_n_n 768 rfl rfl h
  have el : dot_S256x768_S256x768_S256x256_1_1_0_0_n_n.lhsIdx (ix2 q d)
      ((contrEquiv1 dot_S256x768_S256x768_S256x256_1_1_0_0_n_n 768 rfl rfl).symm h) = ix2 q h :=
    funext fun a => Fin.ext (by
      match a with
      | ⟨0, _⟩ => exact lhs_axis0 _ _
      | ⟨1, _⟩ => exact (lhs_axis1 _ _).trans hk)
  have er : dot_S256x768_S256x768_S256x256_1_1_0_0_n_n.rhsIdx (ix2 q d)
      ((contrEquiv1 dot_S256x768_S256x768_S256x256_1_1_0_0_n_n 768 rfl rfl).symm h) = ix2 d h :=
    funext fun a => Fin.ext (by
      match a with
      | ⟨0, _⟩ => exact rhs_axis0 _ _
      | ⟨1, _⟩ => exact (rhs_axis1 _ _).trans hk)
  rw [el, er]
  have e1 : shapeCast S256x768 v40 shapeCasts_S1x256x768_S256x768 (ix2 q h) = v40 (ix3 (0 : Fin 1) q h) :=
    shapeCast_1ab_ab_apply v40 _ q h
  have e2 : broadcastTo S256x768 v36 broadcasts_S256x1_S256x768 (ix2 q h) = v36 (ix2 q (0 : Fin 1)) :=
    broadcastTo_a1_ab_apply v36 _ q h
  have e3 : shapeCast S256x768 v44 shapeCasts_S1x256x768_S256x768 (ix2 d h) = v44 (ix3 (0 : Fin 1) d h) :=
    shapeCast_1ab_ab_apply v44 _ d h
  have e4 : broadcastTo S256x768 v39 broadcasts_S256x1_S256x768 (ix2 d h) = v39 (ix2 d (0 : Fin 1)) :=
    broadcastTo_a1_ab_apply v39 _ d h
  show (shapeCast S256x768 v40 shapeCasts_S1x256x768_S256x768 (ix2 q h)
        * broadcastTo S256x768 v36 broadcasts_S256x1_S256x768 (ix2 q h))
      * (shapeCast S256x768 v44 shapeCasts_S1x256x768_S256x768 (ix2 d h)
        * broadcastTo S256x768 v39 broadcasts_S256x1_S256x768 (ix2 d h)) = _
  rw [e1, e2, e3, e4]

/-- The stored overlap block is the product with a unit axis in front. -/
theorem out_overlap (v50 : FVec Ideal S256x256 .f32) (u : Fin 1) (q d : Fin 256) :
    k0_pay1 v50 (ix3 u q d) = v50 (ix2 q d) := by
  unfold k0_pay1
  exact shapeCast_ab_1ab_apply v50 _ u q d

end Cert.BlockOverlap

end
-- ==== Proof.BlockBlend.lean ====
/-
  One grid point of the kernel: the exact-match matrix and the blended, frequency-weighted matrix, read at an index.
-/
import proofs.«174457_j20572893348512_1_alg».proof.Proof.Gen.KernelIdeal.Skeleton
import proofs.«174457_j20572893348512_1_alg».proof.Proof.Scoring
import Idealize.ShloMosaic.Lib.ValueIdx
import Idealize.ShloMosaic.Lib.ValueLayout
import Idealize.ShloMosaic.Lib.Pipeline.Value
import Idealize.ShloMosaic.PureOps.Ideal.Laws

noncomputable section

namespace Cert.BlockBlend

open Idealize.ShloMosaic Idealize.ShloMosaic.ValueIdx Cert.KernelIdeal Cert.KernelIdeal.Gen

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The exact match as a word -/

/-- A one-bit word widened to 32 bits and read as a signed integer is 1 where the bit is set and 0 otherwise. -/
theorem sitofp_bit (c : BitVec 1) :
    (FloatOps.sitofp (F := Ideal) .f32 (c.setWidth 32) : EReal) = if c = 1#1 then 1 else 0 := by
  rcases BitVec.eq_zero_or_eq_one c with rfl | rfl
  · show (((BitVec.setWidth 32 0#1).toInt : ℝ) : EReal) = _
    rw [if_neg (by decide), show (BitVec.setWidth 32 0#1).toInt = 0 from by decide, Int.cast_zero, EReal.coe_zero]
  · show (((BitVec.setWidth 32 1#1).toInt : ℝ) : EReal) = _
    rw [if_pos rfl, show (BitVec.setWidth 32 1#1).toInt = 1 from by decide, Int.cast_one, EReal.coe_one]

/-- The conjunction of the four id comparisons of two windows, widened and converted, is the exact match of the
    windows. -/
theorem sitofp_same (u v : Fin 4 → BitVec 32) :
    (FloatOps.sitofp (F := Ideal) .f32
        ((IntOp.andi (IntOp.andi (IntOp.andi (IntOp.cmpi .eq (u 0) (v 0)) (IntOp.cmpi .eq (u 1) (v 1)))
          (IntOp.cmpi .eq (u 2) (v 2))) (IntOp.cmpi .eq (u 3) (v 3))).setWidth 32) : EReal)
      = Cert.Scoring.same u v := by
  rw [sitofp_bit]
  unfold Cert.Scoring.same
  have hiff : IntOp.andi (IntOp.andi (IntOp.andi (IntOp.cmpi .eq (u 0) (v 0)) (IntOp.cmpi .eq (u 1) (v 1)))
      (IntOp.cmpi .eq (u 2) (v 2))) (IntOp.cmpi .eq (u 3) (v 3)) = 1#1 ↔ ∀ k, u k = v k := by
    rw [IntOp.andi_eq_one, IntOp.andi_eq_one, IntOp.andi_eq_one, IntOp.cmpi_eq, IntOp.cmpi_eq, IntOp.cmpi_eq,
      IntOp.cmpi_eq]
    constructor
    · rintro ⟨⟨⟨h0, h1⟩, h2⟩, h3⟩ k
      match k with
      | ⟨0, _⟩ => exact h0
      | ⟨1, _⟩ => exact h1
      | ⟨2, _⟩ => exact h2
      | ⟨3, _⟩ => exact h3
    · intro h
      exact ⟨⟨⟨h 0, h 1⟩, h 2⟩, h 3⟩
  by_cases h : ∀ k, u k = v k
  · rw [if_pos (hiff.2 h), if_pos h]
  · rw [if_neg (fun e => h (hiff.1 e)), if_neg h]

/-! ## The block's values at an index -/

/-- The query ids of a block without the unit axis. -/
theorem ids_pay (v0 : Vec Ideal S1x256x4 .i32) (q : Fin 256) (k : Fin 4) :
    k0_pay3 (F := Ideal) v0 (ix2 q k) = v0 (ix3 (0 : Fin 1) q k) := by
  unfold k0_pay3
  exact shapeCast_1ab_ab_apply v0 _ q k

/-- The document term frequencies of a block without the unit axis. -/
theorem freq_pay (v83 : Vec Ideal S1x1x256 .f32) (u : Fin 1) (d : Fin 256) :
    k0_pay7 v83 (ix2 u d) = v83 (ix3 (0 : Fin 1) (0 : Fin 1) d) := by
  obtain rfl : u = 0 := Subsingleton.elim _ _
  unfold k0_pay7
  exact shapeCast_1ab_ab_apply v83 _ 0 d

/-- Column `k` of the query ids, spread over the columns of the block, reads the id at `(q, k)`. -/
theorem query_col (v1 : IVec S256x4 32) (o : ℕ) (hs : S256x4.Slices ![0, o] S256x1) (k : Fin 4) (hk : k.val = o)
    (q d : Fin 256) :
    broadcastTo S256x256 (extractStridedSlice S256x1 ![0, o] v1 hs) broadcasts_S256x1_S256x256 (ix2 q d)
      = v1 (ix2 q k) :=
  (broadcastTo_a1_ab_apply _ _ q d).trans
    (slice2_axis1_apply o v1 hs q (0 : Fin 1) k (by rw [hk]; rfl))

/-- Row `k` of the document ids without the unit axis, spread over the rows of the block, reads the id at
    `(0, k, d)`. -/
theorem doc_row (v51 : Vec Ideal S1x4x256 .i32) (o : ℕ) (hs : S4x256.Slices ![o, 0] S1x256) (k : Fin 4)
    (hk : k.val = o) (q d : Fin 256) :
    broadcastTo S256x256 (extractStridedSlice S1x256 ![o, 0] (shapeCast S4x256 v51 shapeCasts_S1x4x256_S4x256) hs)
        broadcasts_S1x256_S256x256 (ix2 q d)
      = v51 (ix3 (0 : Fin 1) k d) :=
  (broadcastTo_1b_ab_apply _ _ q d).trans
    ((slice2_axis0_apply o _ hs (0 : Fin 1) d k (by rw [hk]; rfl)).trans
      (shapeCast_1ab_ab_apply v51 _ k d))

/-- A blend of an overlap array with the conjunction of four id comparisons, weighted by a third array, read at an
    index where the compared arrays hold the ids of two windows. -/
theorem blend_at {s : Shape} (A T : FVec Ideal s .f32) (a0 a1 a2 a3 b0 b1 b2 b3 : IVec s 32) (cO cM : BitVec 32)
    (h : 1 < 32) (j : s.Idx) (u v : Fin 4 → BitVec 32) (t : EReal)
    (h0 : a0 j = u 0) (h1 : a1 j = u 1) (h2 : a2 j = u 2) (h3 : a3 j = u 3)
    (g0 : b0 j = v 0) (g1 : b1 j = v 1) (g2 : b2 j = v 2) (g3 : b3 j = v 3) (hT : T j = t) :
    mulf (addf (mulf A (broadcast s (Scalar.ofBits (F := Ideal) .f32 cO)))
        (mulf (sitofp .f32 (extui 32 (andi (andi (andi (cmpi .eq a0 b0) (cmpi .eq a1 b1)) (cmpi .eq a2 b2))
          (cmpi .eq a3 b3)) h)) (broadcast s (Scalar.ofBits (F := Ideal) .f32 cM)))) T j
      = (A j * Ideal.ofBits .f32 cO + Cert.Scoring.same u v * Ideal.ofBits .f32 cM) * t := by
  show (A j * Ideal.ofBits .f32 cO
      + FloatOps.sitofp (F := Ideal) .f32
          ((IntOp.andi (IntOp.andi (IntOp.andi (IntOp.cmpi .eq (a0 j) (b0 j)) (IntOp.cmpi .eq (a1 j) (b1 j)))
            (IntOp.cmpi .eq (a2 j) (b2 j))) (IntOp.cmpi .eq (a3 j) (b3 j))).setWidth 32) * Ideal.ofBits .f32 cM) * T j
    = _
  rw [h0, h1, h2, h3, g0, g1, g2, g3, hT, sitofp_same]

/-- The blended matrix at (q, d): the overlap times its constant plus the exact match times its constant, times the
    document term frequency of column d. -/
theorem blend_pay (v1 : IVec S256x4 32) (v36 v39 : FVec Ideal S256x1 .f32) (v40 v44 : Vec Ideal S1x256x768 .f32)
    (v51 : Vec Ideal S1x4x256 .i32) (v83 : Vec Ideal S1x1x256 .f32) (q d : Fin 256) :
    k0_pay8 v1 v36 v39 v40 v44 v51 v83 (ix2 q d)
      = Cert.Scoring.blended (fun q d => k0_pay6 v36 v39 v40 v44 (ix2 q d))
          (fun q d => Cert.Scoring.same (fun k => v1 (ix2 q k)) (fun k => v51 (ix3 (0 : Fin 1) k d)))
          (fun d => v83 (ix3 (0 : Fin 1) (0 : Fin 1) d)) q d := by
  unfold k0_pay8 Cert.Scoring.blended
  exact blend_at _ _ _ _ _ _ _ _ _ _ _ _ _ (ix2 q d) (fun k => v1 (ix2 q k)) (fun k => v51 (ix3 (0 : Fin 1) k d)) _
    (query_col v1 0 _ 0 rfl q d) (query_col v1 1 _ 1 rfl q d) (query_col v1 2 _ 2 rfl q d) (query_col v1 3 _ 3 rfl q d)
    (doc_row v51 0 _ 0 rfl q d) (doc_row v51 1 _ 1 rfl q d) (doc_row v51 2 _ 2 rfl q d) (doc_row v51 3 _ 3 rfl q d)
    ((broadcastTo_1b_ab_apply _ _ q d).trans (freq_pay v83 0 d))

end Cert.BlockBlend

end
-- ==== Proof.BlockScore.lean ====
/-
  One grid point of the kernel: the score from the blended matrix, the document term frequencies and the query term weights.
-/
import proofs.«174457_j20572893348512_1_alg».proof.Proof.Gen.KernelIdeal.Skeleton
import proofs.«174457_j20572893348512_1_alg».proof.Proof.Scoring
import Idealize.ShloMosaic.Lib.ValueIdx
import Idealize.ShloMosaic.Lib.ValueLayout
import Idealize.ShloMosaic.Lib.Pipeline.Value
import Idealize.ShloMosaic.PureOps.Ideal.Laws

noncomputable section

namespace Cert.BlockScore

open Idealize.ShloMosaic Idealize.ShloMosaic.ValueIdx Cert.KernelIdeal Cert.KernelIdeal.Gen

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row sums of the blended matrix, kept as a column: at `(q, u)` the sum over `d` of the matrix at `(q, d)`. -/
theorem rowsum (v86 : FVec Ideal S256x256 .f32) (q : Fin 256) (u : Fin 1) :
    shapeCast S256x1 (multiReduction .add [1] S256 v86 0x00000000#32 reduces_S256x256_S256 (.inl rfl) rfl)
        shapeCasts_S256_S256x1 (ix2 q u)
      = ∑ d : Fin 256, v86 (ix2 q d) := by
  refine (shapeCast_a_a1_apply _ shapeCasts_S256_S256x1 q u).trans ?_
  refine (Ideal.multiReduction_add_single v86 0x00000000#32 reduces_S256x256_S256 (.inl rfl) rfl (ix1 q)).trans ?_
  refine Finset.sum_congr rfl fun d _ => congrArg v86 ?_
  funext a
  refine Fin.ext ?_
  match a with
  | ⟨0, _⟩ => rfl
  | ⟨1, _⟩ => rfl

/-- The document length, kept as a `[1, 1]` array: at its one index the sum over `d` of the term frequencies. -/
theorem doclen (v84 : FVec Ideal S1x256 .f32) (u u' : Fin 1) :
    shapeCast S1x1 (multiReduction .add [1] S1 v84 0x00000000#32 reduces_S1x256_S1 (.inl rfl) rfl)
        shapeCasts_S1_S1x1 (ix2 u u')
      = ∑ d : Fin 256, v84 (ix2 (0 : Fin 1) d) := by
  have hu : u = 0 := Fin.ext (by omega)
  subst hu
  refine (shapeCast_a_a1_apply _ shapeCasts_S1_S1x1 0 u').trans ?_
  refine (Ideal.multiReduction_add_single v84 0x00000000#32 reduces_S1x256_S1 (.inl rfl) rfl (ix1 0)).trans ?_
  refine Finset.sum_congr rfl fun d _ => congrArg v84 ?_
  funext a
  refine Fin.ext ?_
  match a with
  | ⟨0, _⟩ => rfl
  | ⟨1, _⟩ => rfl

/-- The stored score of a block: row sums of the blended matrix, the document length, the term weights, and their sum
    against the query term weights. -/
theorem score_pay (v84 : FVec Ideal S1x256 .f32) (v86 : FVec Ideal S256x256 .f32) (v106 : Vec Ideal S1x256x1 .f32)
    (u0 u1 u2 : Fin 1) :
    k0_pay2 v84 v86 v106 (ix3 u0 u1 u2)
      = Cert.Scoring.scoreFrom (fun q d => v86 (ix2 q d)) (fun d => v84 (ix2 (0 : Fin 1) d))
          (fun q => v106 (ix3 (0 : Fin 1) q (0 : Fin 1))) := by
  unfold k0_pay2
  unfold Cert.Scoring.scoreFrom Cert.Scoring.termWeight
  -- the two outer unit-axis casts, then the lane sum over the query windows
  refine (shapeCast_ab_1ab_apply _ shapeCasts_S1x1_S1x1x1 u0 u1 u2).trans ?_
  refine (shapeCast_a_a1_apply _ shapeCasts_S1_S1x1 u1 u2).trans ?_
  refine (Ideal.multiReduction_add_single _ 0x00000000#32 reduces_S256x1_S1 (.inl rfl) rfl (ix1 u1)).trans ?_
  refine Finset.sum_congr rfl fun q _ => ?_
  have hidx : reduces_S256x1_S1.lift (ix1 u1) q = ix2 q (0 : Fin 1) := by
    funext a
    refine Fin.ext ?_
    match a with
    | ⟨0, _⟩ => rfl
    | ⟨1, _⟩ => show u1.val = 0; omega
  refine (congrArg _ hidx).trans ?_
  -- one query window: its weight times its term weight
  refine (mulf_apply _ _ _).trans ?_
  refine congrArg₂ (· * ·) (shapeCast_1ab_ab_apply v106 _ q 0) ?_
  refine (divf_apply _ _ _).trans ?_
  refine congrArg₂ Ideal.div ?_ ?_
  · refine (mulf_apply _ _ _).trans ?_
    exact congrArg₂ (· * ·) (rowsum v86 q 0) rfl
  · refine (addf_apply _ _ _).trans ?_
    refine congrArg₂ (· + ·) ?_ rfl
    refine (addf_apply _ _ _).trans ?_
    refine congrArg₂ (· + ·) (rowsum v86 q 0) ?_
    refine (broadcastTo_1b_ab_apply _ _ q 0).trans ?_
    refine (mulf_apply _ _ _).trans ?_
    refine congrArg₂ (· * ·) rfl ?_
    refine (addf_apply _ _ _).trans ?_
    refine congrArg₂ (· + ·) rfl ?_
    refine (divf_apply _ _ _).trans ?_
    refine congrArg₂ Ideal.div ?_ rfl
    refine (mulf_apply _ _ _).trans ?_
    exact congrArg₂ (· * ·) rfl (doclen v84 0 0)

end Cert.BlockScore

end
-- ==== Proof.KernelArrays.lean ====
/-
  What the kernel program leaves in its two result arrays: each grid point works on one batch, stores that batch's
  overlap matrix and score, and the host reshapes the scores; read back as the specification's functions of the
  argument arrays.
-/
import proofs.«174457_j20572893348512_1_alg».proof.Proof.Gen.KernelIdeal.Frame
import proofs.«174457_j20572893348512_1_alg».proof.Proof.BlockOverlap
import proofs.«174457_j20572893348512_1_alg».proof.Proof.BlockBlend
import proofs.«174457_j20572893348512_1_alg».proof.Proof.BlockScore
import proofs.«174457_j20572893348512_1_alg».proof.Proof.Scoring
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelArrays

open Cert.KernelIdeal Cert.KernelIdeal.Gen

variable (m : (ℓ : Loc nD τ sig) → Buf (Elt Ideal) ℓ) (ρ : Dev nD → PrngReg)

/-! ## The grid: point `t` works on batch `t` -/

/-- The batch a grid point works on. -/
def batch (t : Fin cfg0.N) : Fin 64 := ⟨t.val, lt_of_lt_of_eq t.isLt N_0⟩

/-- Every window's block index at point `t` is (t, 0, 0). -/
theorem index_facts : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

/-- The argument arrays as launched, by their literal types. -/
abbrev arg0 (c : Dev nD) : S64x256x768.Idx → EReal := m ((c : Thread nD τ).loc main_arg0)
abbrev arg1 (c : Dev nD) : S64x256x768.Idx → EReal := m ((c : Thread nD τ).loc main_arg1)
abbrev arg2 (c : Dev nD) : S64x256.Idx → EReal := m ((c : Thread nD τ).loc main_arg2)
abbrev arg3 (c : Dev nD) : S64x256x4.Idx → BitVec 32 := m ((c : Thread nD τ).loc main_arg3)
abbrev arg4 (c : Dev nD) : S64x256x4.Idx → BitVec 32 := m ((c : Thread nD τ).loc main_arg4)
abbrev arg5 (c : Dev nD) : S64x256.Idx → BitVec 32 := m ((c : Thread nD τ).loc main_arg5)

/-! ## The arrays the host writes before the region -/

/-- The query term weights with a trailing unit axis. -/
theorem V_weights (c : Dev nD) (b : Fin 64) (r : Fin 256) (u : Fin 1) :
    (V m c main_v0 : S64x256x1.Idx → EReal) (ix3 b r u) = arg2 m c (ix2 b r) := by
  have e : (V m c main_v0 : S64x256x1.Idx → EReal)
      = broadcastInDim S64x256x1 ![0, 1] bcast_S64x256_S64x256x1_0_1 (arg2 m c) := by
    show StableHlo.after hostOps0 (fun b => m (c, b)) (Proc.devRef .tc main_v0) = _
    after_results
  rw [e]
  refine broadcastInDim_apply _ _ _ _ _ fun a => ?_
  match a with
  | ⟨0, _⟩ => rfl
  | ⟨1, _⟩ => rfl

/-- The document term frequencies converted to reals, with a unit axis in the middle. -/
theorem V_freqs (c : Dev nD) (b : Fin 64) (u : Fin 1) (d : Fin 256) :
    (V m c main_v2 : S64x1x256.Idx → EReal) (ix3 b u d) = Cert.Scoring.freqAt (arg5 m c) b d := by
  have e : (V m c main_v2 : S64x1x256.Idx → EReal)
      = broadcastInDim S64x1x256 ![0, 2] bcast_S64x256_S64x1x256_0_2 (sitofp (F := Ideal) .f32 (arg5 m c)) := by
    show StableHlo.after hostOps0 (fun b => m (c, b)) (Proc.devRef .tc main_v2) = _
    after_results
  rw [e]
  refine (broadcastInDim_apply _ _ _ _ (ix2 b d) fun a => ?_).trans rfl
  match a with
  | ⟨0, _⟩ => rfl
  | ⟨1, _⟩ => rfl

/-- The document ids with their last two axes exchanged. -/
theorem V_idsT (c : Dev nD) (b : Fin 64) (k : Fin 4) (d : Fin 256) :
    (V m c main_v3 : S64x4x256.Idx → BitVec 32) (ix3 b k d) = arg4 m c (ix3 b d k) := by
  have e : (V m c main_v3 : S64x4x256.Idx → BitVec 32)
      = transpose S64x4x256 [0, 2, 1] (arg4 m c) transposes_S64x256x4_S64x4x256_0_2_1 := by
    show StableHlo.after hostOps0 (fun b => m (c, b)) (Proc.devRef .tc main_v3) = _
    after_results
  rw [e]
  exact transpose_ix3_021_apply _ _ b k d

/-! ## Each input window's block at point `t` is batch `t` of its array -/

theorem iblk0_apply (c : Dev nD) (t : Fin cfg0.N) (r : Fin 256) (h : Fin 768) :
    (iblk m c 0 t : Vec Ideal S1x256x768 .f32) (ix3 (0 : Fin 1) r h) = arg0 m c (ix3 (batch t) r h) := by
  have hi := (index_facts t).1
  unfold iblk
  rw [View.read_apply]
  show V m c main_arg0 _ = _
  rw [V_main_arg0]
  congr 1
  funext a
  apply Fin.ext
  match a with
  | ⟨0, _⟩ => show win0_0.index t 0 * 1 + 1 * 0 = t.val; rw [hi]; simp
  | ⟨1, _⟩ => show win0_0.index t 1 * 256 + 1 * r.val = r.val; rw [hi]; simp
  | ⟨2, _⟩ => show win0_0.index t 2 * 768 + 1 * h.val = h.val; rw [hi]; simp

theorem iblk1_apply (c : Dev nD) (t : Fin cfg0.N) (r : Fin 256) (h : Fin 768) :
    (iblk m c 1 t : Vec Ideal S1x256x768 .f32) (ix3 (0 : Fin 1) r h) = arg1 m c (ix3 (batch t) r h) := by
  have hi := (index_facts t).2.1
  unfold iblk
  rw [View.read_apply]
  show V m c main_arg1 _ = _
  rw [V_main_arg1]
  congr 1
  funext a
  apply Fin.ext
  match a with
  | ⟨0, _⟩ => show win0_1.index t 0 * 1 + 1 * 0 = t.val; rw [hi]; simp
  | ⟨1, _⟩ => show win0_1.index t 1 * 256 + 1 * r.val = r.val; rw [hi]; simp
  | ⟨2, _⟩ => show win0_1.index t 2 * 768 + 1 * h.val = h.val; rw [hi]; simp

theorem iblk2_apply (c : Dev nD) (t : Fin cfg0.N) (r : Fin 256) :
    (iblk m c 2 t : Vec Ideal S1x256x1 .f32) (ix3 (0 : Fin 1) r (0 : Fin 1)) = arg2 m c (ix2 (batch t) r) := by
  have hi := (index_facts t).2.2.1
  unfold iblk
  rw [View.read_apply]
  show V m c main_v0 _ = _
  refine Eq.trans ?_ (V_weights m c (batch t) r 0)
  congr 1
  funext a
  apply Fin.ext
  match a with
  | ⟨0, _⟩ => show win0_2.index t 0 * 1 + 1 * 0 = t.val; rw [hi]; simp
  | ⟨1, _⟩ => show win0_2.index t 1 * 256 + 1 * r.val = r.val; rw [hi]; simp
  | ⟨2, _⟩ => show win0_2.index t 2 * 1 + 1 * 0 = 0; rw [hi]; simp

theorem iblk3_apply (c : Dev nD) (t : Fin cfg0.N) (r : Fin 256) (k : Fin 4) :
    (iblk m c 3 t : Vec Ideal S1x256x4 .i32) (ix3 (0 : Fin 1) r k) = arg3 m c (ix3 (batch t) r k) := by
  have hi := (index_facts t).2.2.2.1
  unfold iblk
  rw [View.read_apply]
  show V m c main_arg3 _ = _
  rw [V_main_arg3]
  congr 1
  funext a
  apply Fin.ext
  match a with
  | ⟨0, _⟩ => show win0_3.index t 0 * 1 + 1 * 0 = t.val; rw [hi]; simp
  | ⟨1, _⟩ => show win0_3.index t 1 * 256 + 1 * r.val = r.val; rw [hi]; simp
  | ⟨2, _⟩ => show win0_3.index t 2 * 4 + 1 * k.val = k.val; rw [hi]; simp

theorem iblk4_apply (c : Dev nD) (t : Fin cfg0.N) (r : Fin 256) (k : Fin 4) :
    (iblk m c 4 t : Vec Ideal S1x256x4 .i32) (ix3 (0 : Fin 1) r k) = arg4 m c (ix3 (batch t) r k) := by
  have hi := (index_facts t).2.2.2.2.1
  unfold iblk
  rw [View.read_apply]
  show V m c main_arg4 _ = _
  rw [V_main_arg4]
  congr 1
  funext a
  apply Fin.ext
  match a with
  | ⟨0, _⟩ => show win0_4.index t 0 * 1 + 1 * 0 = t.val; rw [hi]; simp
  | ⟨1, _⟩ => show win0_4.index t 1 * 256 + 1 * r.val = r.val; rw [hi]; simp
  | ⟨2, _⟩ => show win0_4.index t 2 * 4 + 1 * k.val = k.val; rw [hi]; simp

theorem iblk5_apply (c : Dev nD) (t : Fin cfg0.N) (k : Fin 4) (d : Fin 256) :
    (iblk m c 5 t : Vec Ideal S1x4x256 .i32) (ix3 (0 : Fin 1) k d) = arg4 m c (ix3 (batch t) d k) := by
  have hi := (index_facts t).2.2.2.2.2.1
  unfold iblk
  rw [View.read_apply]
  show V m c main_v3 _ = _
  refine Eq.trans ?_ (V_idsT m c (batch t) k d)
  congr 1
  funext a
  apply Fin.ext
  match a with
  | ⟨0, _⟩ => show win0_5.index t 0 * 1 + 1 * 0 = t.val; rw [hi]; simp
  | ⟨1, _⟩ => show win0_5.index t 1 * 4 + 1 * k.val = k.val; rw [hi]; simp
  | ⟨2, _⟩ => show win0_5.index t 2 * 256 + 1 * d.val = d.val; rw [hi]; simp

theorem iblk6_apply (c : Dev nD) (t : Fin cfg0.N) (d : Fin 256) :
    (iblk m c 6 t : Vec Ideal S1x1x256 .f32) (ix3 (0 : Fin 1) (0 : Fin 1) d) = Cert.Scoring.freqAt (arg5 m c) (batch t) d := by
  have hi := (index_facts t).2.2.2.2.2.2.1
  unfold iblk
  rw [View.read_apply]
  show V m c main_v2 _ = _
  refine Eq.trans ?_ (V_freqs m c (batch t) 0 d)
  congr 1
  funext a
  apply Fin.ext
  match a with
  | ⟨0, _⟩ => show win0_6.index t 0 * 1 + 1 * 0 = t.val; rw [hi]; simp
  | ⟨1, _⟩ => show win0_6.index t 1 * 1 + 1 * 0 = 0; rw [hi]; simp
  | ⟨2, _⟩ => show win0_6.index t 2 * 256 + 1 * d.val = d.val; rw [hi]; simp

/-! ## What a grid point stores -/

theorem hz3 : (![0, 0, 0] : Fin 3 → Nat) = fun _ => 0 := funext fun a => by fin_cases a <;> rfl

/-- The masked product of a point's blocks is the overlap matrix of its blocks. -/
theorem overlap_of_blocks (x0 x1 : Vec Ideal S1x256x768 .f32) (x3 x4 : Vec Ideal S1x256x4 .i32) :
    (fun q d : Fin 256 => k0_pay6 (k0_pay4 x3) (k0_pay5 x4) x0 x1 (ix2 q d))
      = Cert.Scoring.overlap (fun q h => x0 (ix3 (0 : Fin 1) q h)) (fun d h => x1 (ix3 (0 : Fin 1) d h))
          (fun q => Cert.Scoring.live fun k => x3 (ix3 (0 : Fin 1) q k)) (fun d => Cert.Scoring.live fun k => x4 (ix3 (0 : Fin 1) d k)) := by
  funext q d
  refine (Cert.BlockOverlap.overlap_pay _ _ _ _ q d).trans ?_
  have eq : (fun q : Fin 256 => k0_pay4 (F := Ideal) x3 (ix2 q (0 : Fin 1))) = fun q => Cert.Scoring.live fun k => x3 (ix3 (0 : Fin 1) q k) :=
    funext fun q => Cert.BlockOverlap.live_q x3 q 0
  have ed : (fun d : Fin 256 => k0_pay5 (F := Ideal) x4 (ix2 d (0 : Fin 1))) = fun d => Cert.Scoring.live fun k => x4 (ix3 (0 : Fin 1) d k) :=
    funext fun d => Cert.BlockOverlap.live_d x4 d 0
  rw [eq, ed]

/-- What a grid point stores into the overlap window, at (q, d): the masked rows' dot product of its blocks. -/
theorem out_overlap_apply (x0 x1 : Vec Ideal S1x256x768 .f32) (x2 : Vec Ideal S1x256x1 .f32) (x3 x4 : Vec Ideal S1x256x4 .i32)
    (x5 : Vec Ideal S1x4x256 .i32) (x6 : Vec Ideal S1x1x256 .f32) (u : Fin 1) (q d : Fin 256) :
    out0_7 x0 x1 x2 x3 x4 x5 x6 (ix3 u q d)
      = Cert.Scoring.overlap (fun q h => x0 (ix3 (0 : Fin 1) q h)) (fun d h => x1 (ix3 (0 : Fin 1) d h))
          (fun q => Cert.Scoring.live fun k => x3 (ix3 (0 : Fin 1) q k)) (fun d => Cert.Scoring.live fun k => x4 (ix3 (0 : Fin 1) d k)) q d := by
  unfold out0_7
  rw [View.canon_unit_zero hz3]
  simp only [View.ld_unit_zero (S := S1x256x768) hz3, View.ld_unit_zero (S := S1x256x4) hz3]
  exact (Cert.BlockOverlap.out_overlap _ u q d).trans (congrFun (congrFun (overlap_of_blocks x0 x1 x3 x4) q) d)

/-- What a grid point stores into the score window: the score of its blocks. -/
theorem out_score_apply (x0 x1 : Vec Ideal S1x256x768 .f32) (x2 : Vec Ideal S1x256x1 .f32) (x3 x4 : Vec Ideal S1x256x4 .i32)
    (x5 : Vec Ideal S1x4x256 .i32) (x6 : Vec Ideal S1x1x256 .f32) (u0 u1 u2 : Fin 1) :
    out0_8 x0 x1 x2 x3 x4 x5 x6 (ix3 u0 u1 u2)
      = Cert.Scoring.scoreFrom
          (Cert.Scoring.blended
            (Cert.Scoring.overlap (fun q h => x0 (ix3 (0 : Fin 1) q h)) (fun d h => x1 (ix3 (0 : Fin 1) d h))
              (fun q => Cert.Scoring.live fun k => x3 (ix3 (0 : Fin 1) q k)) (fun d => Cert.Scoring.live fun k => x4 (ix3 (0 : Fin 1) d k)))
            (fun q d => Cert.Scoring.same (fun k => x3 (ix3 (0 : Fin 1) q k)) (fun k => x5 (ix3 (0 : Fin 1) k d)))
            (fun d => x6 (ix3 (0 : Fin 1) (0 : Fin 1) d)))
          (fun d => x6 (ix3 (0 : Fin 1) (0 : Fin 1) d)) (fun q => x2 (ix3 (0 : Fin 1) q (0 : Fin 1))) := by
  unfold out0_8
  rw [View.canon_unit_zero hz3]
  simp only [View.ld_unit_zero (S := S1x256x768) hz3, View.ld_unit_zero (S := S1x256x4) hz3, View.ld_unit_zero (S := S1x4x256) hz3,
    View.ld_unit_zero (S := S1x1x256) hz3, View.ld_unit_zero (S := S1x256x1) hz3]
  refine (Cert.BlockScore.score_pay _ _ _ u0 u1 u2).trans ?_
  have eF : (fun d : Fin 256 => k0_pay7 x6 (ix2 (0 : Fin 1) d)) = fun d => x6 (ix3 (0 : Fin 1) (0 : Fin 1) d) :=
    funext fun d => Cert.BlockBlend.freq_pay x6 0 d
  have eS : (fun q d : Fin 256 => Cert.Scoring.same (fun k => k0_pay3 (F := Ideal) x3 (ix2 q k)) (fun k => x5 (ix3 (0 : Fin 1) k d)))
      = fun q d => Cert.Scoring.same (fun k => x3 (ix3 (0 : Fin 1) q k)) (fun k => x5 (ix3 (0 : Fin 1) k d)) :=
    funext fun q => funext fun d => congrArg (fun f => Cert.Scoring.same f (fun k => x5 (ix3 (0 : Fin 1) k d)))
      (funext fun k => Cert.BlockBlend.ids_pay x3 q k)
  have eB : (fun q d : Fin 256 => k0_pay8 (k0_pay3 x3) (k0_pay4 x3) (k0_pay5 x4) x0 x1 x5 x6 (ix2 q d))
      = Cert.Scoring.blended (fun q d => k0_pay6 (k0_pay4 x3) (k0_pay5 x4) x0 x1 (ix2 q d))
          (fun q d => Cert.Scoring.same (fun k => k0_pay3 (F := Ideal) x3 (ix2 q k)) (fun k => x5 (ix3 (0 : Fin 1) k d)))
          (fun d => x6 (ix3 (0 : Fin 1) (0 : Fin 1) d)) :=
    funext fun q => funext fun d => Cert.BlockBlend.blend_pay _ _ _ _ _ _ _ q d
  rw [eF, eB, eS, overlap_of_blocks]

/-! ## The two result arrays after the region -/

/-- The overlap array of the specification, of the arguments as launched. -/
abbrev overlapOf (c : Dev nD) : S64x256x256.Idx → EReal :=
  Cert.Scoring.overlapAll (arg0 m c) (arg1 m c) (arg3 m c) (arg4 m c)

/-- The scores of the specification with two trailing unit axes, of the arguments as launched. -/
def scoreOf3 (c : Dev nD) : S64x1x1.Idx → EReal :=
  fun i => Cert.Scoring.scoreAt (arg0 m c) (arg1 m c) (arg2 m c) (arg3 m c) (arg4 m c) (arg5 m c) (i 0)

theorem scoreOf3_apply (c : Dev nD) (b : Fin 64) (u v : Fin 1) :
    scoreOf3 m c (ix3 b u v) = Cert.Scoring.scoreAt (arg0 m c) (arg1 m c) (arg2 m c) (arg3 m c) (arg4 m c) (arg5 m c) b := rfl

/-- What point `t` writes back to the overlap array is block `t` of the specification's array. -/
theorem flushed_overlap (c : Dev nD) (t : Fin cfg0.N) :
    (dats m 0 c).flushed 7 t = ((cfg0.win 7).blk t).view.read (Elt Ideal) (overlapOf m c) := by
  show (cfg0.win 7).cut (grid0.coords t) ((dats m 0 c).after 7 t) = _
  rw [after0_7]
  funext y
  obtain ⟨u, q, d, rfl⟩ : ∃ (u : Fin 1) (q d : Fin 256), y = ix3 u q d := ⟨y 0, y 1, y 2, eq_ix3 y⟩
  show out0_7 (iblk m c 0 t) (iblk m c 1 t) (iblk m c 2 t) (iblk m c 3 t) (iblk m c 4 t) (iblk m c 5 t) (iblk m c 6 t) (ix3 u q d)
      = overlapOf m c (((cfg0.win 7).blk t).view.emb (ix3 u q d))
  have he : ((cfg0.win 7).blk t).view.emb (ix3 u q d) = ix3 (batch t) q d := by
    have hi := (index_facts t).2.2.2.2.2.2.2.1
    have hu := u.isLt
    funext a
    apply Fin.ext
    match a with
    | ⟨0, _⟩ => show win0_7.index t 0 * 1 + 1 * u.val = t.val; rw [hi]; show t.val * 1 + 1 * u.val = t.val; omega
    | ⟨1, _⟩ => show win0_7.index t 1 * 256 + 1 * q.val = q.val; rw [hi]; show 0 * 256 + 1 * q.val = q.val; omega
    | ⟨2, _⟩ => show win0_7.index t 2 * 256 + 1 * d.val = d.val; rw [hi]; show 0 * 256 + 1 * d.val = d.val; omega
  rw [he]
  show _ = Cert.Scoring.overlapAt (arg0 m c) (arg1 m c) (arg3 m c) (arg4 m c) (batch t) q d
  refine (out_overlap_apply (iblk m c 0 t) (iblk m c 1 t) (iblk m c 2 t) (iblk m c 3 t) (iblk m c 4 t) (iblk m c 5 t) (iblk m c 6 t) u q d).trans ?_
  unfold Cert.Scoring.overlapAt Cert.Scoring.liveAt
  simp only [iblk0_apply, iblk1_apply, iblk3_apply, iblk4_apply]

/-- What point `t` writes back to the score array is block `t` of the specification's scores. -/
theorem flushed_score (c : Dev nD) (t : Fin cfg0.N) :
    (dats m 0 c).flushed 8 t = ((cfg0.win 8).blk t).view.read (Elt Ideal) (scoreOf3 m c) := by
  show (cfg0.win 8).cut (grid0.coords t) ((dats m 0 c).after 8 t) = _
  rw [after0_8]
  funext y
  obtain ⟨u0, u1, u2, rfl⟩ : ∃ (u0 u1 u2 : Fin 1), y = ix3 u0 u1 u2 := ⟨y 0, y 1, y 2, eq_ix3 y⟩
  show out0_8 (iblk m c 0 t) (iblk m c 1 t) (iblk m c 2 t) (iblk m c 3 t) (iblk m c 4 t) (iblk m c 5 t) (iblk m c 6 t) (ix3 u0 u1 u2)
      = scoreOf3 m c (((cfg0.win 8).blk t).view.emb (ix3 u0 u1 u2))
  have he : ((cfg0.win 8).blk t).view.emb (ix3 u0 u1 u2) = ix3 (batch t) (0 : Fin 1) (0 : Fin 1) := by
    have hi := (index_facts t).2.2.2.2.2.2.2.2
    have h0 := u0.isLt
    have h1 := u1.isLt
    have h2 := u2.isLt
    funext a
    apply Fin.ext
    match a with
    | ⟨0, _⟩ => show win0_8.index t 0 * 1 + 1 * u0.val = t.val; rw [hi]; show t.val * 1 + 1 * u0.val = t.val; omega
    | ⟨1, _⟩ => show win0_8.index t 1 * 1 + 1 * u1.val = 0; rw [hi]; show 0 * 1 + 1 * u1.val = 0; omega
    | ⟨2, _⟩ => show win0_8.index t 2 * 1 + 1 * u2.val = 0; rw [hi]; show 0 * 1 + 1 * u2.val = 0; omega
  rw [he, scoreOf3_apply]
  refine (out_score_apply (iblk m c 0 t) (iblk m c 1 t) (iblk m c 2 t) (iblk m c 3 t) (iblk m c 4 t) (iblk m c 5 t) (iblk m c 6 t) u0 u1 u2).trans ?_
  unfold Cert.Scoring.scoreAt Cert.Scoring.overlapAt Cert.Scoring.liveAt
  simp only [iblk0_apply, iblk1_apply, iblk2_apply, iblk3_apply, iblk4_apply, iblk5_apply, iblk6_apply]

/-- An index of the overlap array lies in the block of the point that works on its batch. -/
theorem cover_overlap (i : S64x256x256.Idx) :
    ∃ t : Fin cfg0.N, (cfg0.win 7).flush t = true ∧ i ∈ ((cfg0.win 7).blk t).view.set := by
  have hb : (i 0).val < 64 := (i 0).isLt
  have hq : (i 1).val < 256 := (i 1).isLt
  have hd : (i 2).val < 256 := (i 2).isLt
  let t : Fin cfg0.N := ⟨(i 0).val, lt_of_lt_of_eq hb N_0.symm⟩
  refine ⟨t, flush0_7 t, ?_⟩
  have hi := (index_facts t).2.2.2.2.2.2.2.1
  show i ∈ ((View.whole main_v4_0).slice (win0_7.rect t)).set
  rw [View.set_slice_whole, Rect.mem_set_unit]
  intro a
  match a with
  | ⟨0, _⟩ => show win0_7.index t 0 * 1 ≤ (i 0).val ∧ (i 0).val < win0_7.index t 0 * 1 + 1; rw [hi]; show (i 0).val * 1 ≤ (i 0).val ∧ (i 0).val < (i 0).val * 1 + 1; omega
  | ⟨1, _⟩ => show win0_7.index t 1 * 256 ≤ (i 1).val ∧ (i 1).val < win0_7.index t 1 * 256 + 256; rw [hi]; show 0 * 256 ≤ (i 1).val ∧ (i 1).val < 0 * 256 + 256; omega
  | ⟨2, _⟩ => show win0_7.index t 2 * 256 ≤ (i 2).val ∧ (i 2).val < win0_7.index t 2 * 256 + 256; rw [hi]; show 0 * 256 ≤ (i 2).val ∧ (i 2).val < 0 * 256 + 256; omega

/-- An index of the score array lies in the block of the point that works on its batch. -/
theorem cover_score (i : S64x1x1.Idx) :
    ∃ t : Fin cfg0.N, (cfg0.win 8).flush t = true ∧ i ∈ ((cfg0.win 8).blk t).view.set := by
  have hb : (i 0).val < 64 := (i 0).isLt
  have h1 : (i 1).val < 1 := (i 1).isLt
  have h2 : (i 2).val < 1 := (i 2).isLt
  let t : Fin cfg0.N := ⟨(i 0).val, lt_of_lt_of_eq hb N_0.symm⟩
  refine ⟨t, flush0_8 t, ?_⟩
  have hi := (index_facts t).2.2.2.2.2.2.2.2
  show i ∈ ((View.whole main_v4_1).slice (win0_8.rect t)).set
  rw [View.set_slice_whole, Rect.mem_set_unit]
  intro a
  match a with
  | ⟨0, _⟩ => show win0_8.index t 0 * 1 ≤ (i 0).val ∧ (i 0).val < win0_8.index t 0 * 1 + 1; rw [hi]; show (i 0).val * 1 ≤ (i 0).val ∧ (i 0).val < (i 0).val * 1 + 1; omega
  | ⟨1, _⟩ => show win0_8.index t 1 * 1 ≤ (i 1).val ∧ (i 1).val < win0_8.index t 1 * 1 + 1; rw [hi]; show 0 * 1 ≤ (i 1).val ∧ (i 1).val < 0 * 1 + 1; omega
  | ⟨2, _⟩ => show win0_8.index t 2 * 1 ≤ (i 2).val ∧ (i 2).val < win0_8.index t 2 * 1 + 1; rw [hi]; show 0 * 1 ≤ (i 2).val ∧ (i 2).val < 0 * 1 + 1; omega

/-- The overlap array after the region. -/
theorem final_overlap (c : Dev nD) : (dats m 0 c).arrAt 7 cfg0.N = overlapOf m c :=
  (dats m 0 c).arrAt_eq_of_cover 7 (overlapOf m c) (fun t _ => flushed_overlap m c t) cover_overlap

/-- The score array after the region. -/
theorem final_score (c : Dev nD) : (dats m 0 c).arrAt 8 cfg0.N = scoreOf3 m c :=
  (dats m 0 c).arrAt_eq_of_cover 8 (scoreOf3 m c) (fun t _ => flushed_score m c t) cover_score

/-! ## The host's reshape of the scores, and the run -/

/-- The specification's scores, of the arguments as launched. -/
abbrev scoreOf (c : Dev nD) : S64.Idx → EReal :=
  Cert.Scoring.scoreAll (arg0 m c) (arg1 m c) (arg2 m c) (arg3 m c) (arg4 m c) (arg5 m c)

/-- The scores as the host's reshape leaves them: the two unit axes dropped. -/
theorem tail_score (c : Dev nD) :
    Pipeline.afterTail₀ cfgs (dats m) 0 (V0 m) [hostOps1] c main_v5 = scoreOf m c := by
  unfold Pipeline.afterTail₀
  show StableHlo.after hostOps1 _ (Proc.devRef .tc main_v5) = _
  after_results
  funext i
  obtain ⟨b, rfl⟩ : ∃ b : Fin 64, i = ix1 b := ⟨i 0, eq_ix1 i⟩
  show shapeCast S64 (Pipeline.withArrays (cfgs 0).spec c (V0 m c) (fun w => (dats m 0 c).arrAt w (cfgs 0).N)
      (Proc.devRef .tc main_v4_1)) shapeCasts_S64x1x1_S64 (ix1 b) = _
  have ew : Pipeline.withArrays (cfgs 0).spec c (V0 m c) (fun w => (dats m 0 c).arrAt w (cfgs 0).N) (Proc.devRef .tc main_v4_1)
      = scoreOf3 m c :=
    (Pipeline.withArrays_arr spec0 launch0.win.arr_inj c _ _ 8).trans (final_score m c)
  rw [ew]
  refine (shapeCast_apply _ _ (ix1 b) (ix3 b (0 : Fin 1) (0 : Fin 1)) ?_).trans rfl
  rw [Shape.rowMajor_val_three, Shape.rowMajor_val_one]
  show (b.val * 1 + 0) * 1 + 0 = b.val
  omega

/-- The kernel program's run, read: every weakly fair execution ends with the score array at the specification's
    scores and the overlap array at the specification's overlaps, of the arguments as launched, and the arguments
    unchanged. -/
theorem run : θ_run defs (onTc (τ := τ) (main (F := Ideal))) ⟨m, fun _ => 0, ρ⟩ fun r => ∀ c : Dev nD,
      r.2.mem ((c.tc : Thread nD τ).loc main_v5) = scoreOf m c
      ∧ r.2.mem ((c.tc : Thread nD τ).loc main_v4_0) = overlapOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_score m c),
      ((h c).1 7).trans (final_overlap m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelArrays

end
-- ==== Proof.RefRun.lean ====
/-
  The reference program's run and its operations read at an index, brought in for the modules that compare the two sides.
-/
import proofs.«174457_j20572893348512_1_alg».proof.Proof.Gen.ReferenceIdeal.Run
import proofs.«174457_j20572893348512_1_alg».proof.Proof.Gen.ReferenceIdeal.Read
-- ==== Proof.RefOverlap.lean ====
/-
  The reference program's masks, exact-match array and overlap array, read at an index.
-/
import proofs.«174457_j20572893348512_1_alg».proof.Proof.RefRun
import proofs.«174457_j20572893348512_1_alg».proof.Proof.Scoring
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.Reduce

noncomputable section

namespace Cert.RefOverlap

open Idealize.ShloMosaic Idealize.ShloMosaic.ValueIdx Cert.ReferenceIdeal Cert.ReferenceIdeal.Read

/-- A fold of the one-bit "and" from 1 over a finite set is 1 exactly when every folded bit is 1. -/
theorem fold_andi_eq_one {ι : Type} [DecidableEq ι] (S : Finset ι) (f : ι → BitVec 1) :
    S.fold IntOp.andi 1#1 f = 1#1 ↔ ∀ k ∈ S, f k = 1#1 := by
  induction S using Finset.induction_on with
  | empty =>
    rw [Finset.fold_empty]
    exact ⟨fun _ k hk => absurd hk (Finset.notMem_empty k), fun _ => rfl⟩
  | insert a S ha ih =>
    rw [Finset.fold_insert ha, IntOp.andi_eq_one, ih, Finset.forall_mem_insert]

/-- The "and" over the last axis of a 64 x 256 x 4 array of bits, from 1, is 1 at (b, r) exactly when the four bits of
    window (b, r) are all 1. -/
theorem reduce_and_last (p : S64x256x4.Idx → BitVec 1) (init : S_.Idx → BitVec 1) (hinit : ∀ i, init i = 1#1)
    (b : Fin 64) (r : Fin 256) :
    Host.reduce IntOp.andi p init Gen.reducesTo_S64x256x4_S64x256_d2 Gen.h_S_ (ix2 b r) = 1#1
      ↔ ∀ k : Fin 4, p (ix3 b r k) = 1#1 := by
  have h : S64x256x4.Reduces [2] S64x256 := by decide
  rw [Host.reduce_eq_fold_single IntOp.andi p init Gen.reducesTo_S64x256x4_S64x256_d2 h Gen.h_S_ (ix2 b r), hinit,
    fold_andi_eq_one]
  have e : ∀ k : Fin 4, h.lift (ix2 b r) k = ix3 b r k := fun k => funext fun a => Fin.ext (by
    match a with
    | ⟨0, _⟩ => rfl
    | ⟨1, _⟩ => rfl
    | ⟨2, _⟩ => rfl)
  constructor
  · intro H k
    exact (congrArg p (e k)).symm.trans (H k (Finset.mem_univ _))
  · intro H k _
    exact (congrArg p (e k)).trans (H k)

/-- A bit converted to a float, at the extended reals: 1 for the bit 1, 0 for the bit 0. -/
theorem uitofp_bit (v : BitVec 1) :
    (FloatOps.uitofp (F := Ideal) .f32 v : EReal) = if v = 1#1 then 1 else 0 := by
  rcases BitVec.eq_zero_or_eq_one v with h | h
  · subst h
    rw [if_neg (by decide)]
    show (((0#1 : BitVec 1).toNat : ℝ) : EReal) = 0
    rw [show (0#1 : BitVec 1).toNat = 0 from rfl, Nat.cast_zero, EReal.coe_zero]
  · subst h
    rw [if_pos rfl]
    show (((1#1 : BitVec 1).toNat : ℝ) : EReal) = 1
    rw [show (1#1 : BitVec 1).toNat = 1 from rfl, Nat.cast_one, EReal.coe_one]

/-- The mask of a window from the "all four ids are zero" bit: the negated bit as a float is the liveness. -/
theorem live_of_bit (ids : S64x256x4.Idx → BitVec 32) (v : BitVec 1) (b : Fin 64) (r : Fin 256)
    (hv : v = 1#1 ↔ ∀ k : Fin 4, ids (ix3 b r k) = 0#32) :
    (FloatOps.uitofp (F := Ideal) .f32 (~~~v) : EReal) = Cert.Scoring.liveAt ids b r := by
  rw [uitofp_bit]
  unfold Cert.Scoring.liveAt Cert.Scoring.live
  by_cases hz : ∀ k : Fin 4, ids (ix3 b r k) = 0#32
  · have h1 : ¬(~~~v = 1#1) := fun h => (IntOp.not_eq_one.1 h) (hv.2 hz)
    rw [if_neg h1, if_pos hz]
  · have h1 : ~~~v = 1#1 := IntOp.not_eq_one.2 fun h => hz (hv.1 h)
    rw [if_pos h1, if_neg hz]

/-- The query-side mask: 0 where the window's four ids are all zero, else 1. -/
theorem ref_live_q (x3 : (⟨S64x256x4, .i32⟩ : BufTy).Contents (Elt Ideal)) (b : Fin 64) (r : Fin 256) :
    val_main_v4 (F := Ideal) x3 (ix2 b r) = Cert.Scoring.liveAt x3 b r := by
  rw [val_main_v4_apply, val_main_v3_apply]
  refine live_of_bit x3 _ b r ?_
  unfold val_main_v2
  rw [reduce_and_last _ _ (fun i => val_main_c_0_apply i) b r]
  refine forall_congr' fun k => ?_
  rw [val_main_v1_apply, val_main_v0_apply, val_main_c_apply, IntOp.cmpi_eq]

/-- The document-side mask. -/
theorem ref_live_d (x4 : (⟨S64x256x4, .i32⟩ : BufTy).Contents (Elt Ideal)) (b : Fin 64) (r : Fin 256) :
    val_main_v12 (F := Ideal) x4 (ix2 b r) = Cert.Scoring.liveAt x4 b r := by
  rw [val_main_v12_apply, val_main_v11_apply]
  refine live_of_bit x4 _ b r ?_
  unfold val_main_v10
  rw [reduce_and_last _ _ (fun i => val_main_c_2_apply i) b r]
  refine forall_congr' fun k => ?_
  rw [val_main_v9_apply, val_main_v8_apply, val_main_c_1_apply, IntOp.cmpi_eq]

/-- The "and" over the last axis of a 64 x 256 x 256 x 4 array of bits, from 1, is 1 at (b, q, d) exactly when the
    four bits at (b, q, d, ·) are all 1. -/
theorem reduce_and_last4 (p : S64x256x256x4.Idx → BitVec 1) (init : S_.Idx → BitVec 1) (hinit : ∀ i, init i = 1#1)
    (b : Fin 64) (q d : Fin 256) :
    Host.reduce IntOp.andi p init Gen.reducesTo_S64x256x256x4_S64x256x256_d3 Gen.h_S_ (ix3 b q d) = 1#1
      ↔ ∀ k : Fin 4, p (ix4 b q d k) = 1#1 := by
  have h : S64x256x256x4.Reduces [3] S64x256x256 := by decide
  rw [Host.reduce_eq_fold_single IntOp.andi p init Gen.reducesTo_S64x256x256x4_S64x256x256_d3 h Gen.h_S_ (ix3 b q d),
    hinit, fold_andi_eq_one]
  have e : ∀ k : Fin 4, h.lift (ix3 b q d) k = ix4 b q d k := fun k => funext fun a => Fin.ext (by
    match a with
    | ⟨0, _⟩ => rfl
    | ⟨1, _⟩ => rfl
    | ⟨2, _⟩ => rfl
    | ⟨3, _⟩ => rfl)
  constructor
  · intro H k
    exact (congrArg p (e k)).symm.trans (H k (Finset.mem_univ _))
  · intro H k _
    exact (congrArg p (e k)).trans (H k)

/-- The exact-match array: 1 where the four ids of query window q and document window d agree. -/
theorem ref_same (x3 x4 : (⟨S64x256x4, .i32⟩ : BufTy).Contents (Elt Ideal)) (b : Fin 64) (q d : Fin 256) :
    val_main_v23 (F := Ideal) x3 x4 (ix3 b q d)
      = Cert.Scoring.same (fun k => x3 (ix3 b q k)) (fun k => x4 (ix3 b d k)) := by
  rw [val_main_v23_apply, uitofp_bit]
  have hv : val_main_v22 (F := Ideal) x3 x4 (ix3 b q d) = 1#1 ↔ ∀ k : Fin 4, x3 (ix3 b q k) = x4 (ix3 b d k) := by
    unfold val_main_v22
    rw [reduce_and_last4 _ _ (fun i => val_main_c_3_apply i) b q d]
    refine forall_congr' fun k => ?_
    have e3 : idx_main_v17 (idx_main_v19 (ix4 b q d k)) = ix3 b q k := funext fun a => Fin.ext (by
      match a with
      | ⟨0, _⟩ => rfl
      | ⟨1, _⟩ => rfl
      | ⟨2, _⟩ => rfl)
    have e4 : idx_main_v18 (idx_main_v20 (ix4 b q d k)) = ix3 b d k := funext fun a => Fin.ext (by
      match a with
      | ⟨0, _⟩ => rfl
      | ⟨1, _⟩ => rfl
      | ⟨2, _⟩ => rfl)
    rw [val_main_v21_apply, val_main_v19_apply, val_main_v17_apply, val_main_v20_apply, val_main_v18_apply, e3, e4,
      IntOp.cmpi_eq]
  unfold Cert.Scoring.same
  by_cases hz : ∀ k : Fin 4, x3 (ix3 b q k) = x4 (ix3 b d k)
  · rw [if_pos (hv.2 hz), if_pos hz]
  · rw [if_neg (fun h => hz (hv.1 h)), if_neg hz]

/-- The overlap array at (b, q, d). -/
theorem ref_overlap_apply (x0 x1 : (⟨S64x256x768, .f32⟩ : BufTy).Contents (Elt Ideal))
    (x3 x4 : (⟨S64x256x4, .i32⟩ : BufTy).Contents (Elt Ideal)) (b : Fin 64) (q d : Fin 256) :
    val_main_v16 (F := Ideal) x0 x1 x3 x4 (ix3 b q d) = Cert.Scoring.overlapAt x0 x1 x3 x4 b q d := by
  rw [val_main_v16_apply]
  unfold Cert.Scoring.overlapAt Cert.Scoring.overlap
  refine Finset.sum_congr rfl fun h _ => ?_
  have el : lidx_main_v16 (ix3 b q d) h = ix3 b q h := funext fun a => Fin.ext (by
    match a with
    | ⟨0, _⟩ => rfl
    | ⟨1, _⟩ => rfl
    | ⟨2, _⟩ => rfl)
  have er : ridx_main_v16 (ix3 b q d) h = ix3 b d h := funext fun a => Fin.ext (by
    match a with
    | ⟨0, _⟩ => rfl
    | ⟨1, _⟩ => rfl
    | ⟨2, _⟩ => rfl)
  have eq : idx_main_v5 (idx_main_v6 (ix3 b q h)) = ix2 b q := funext fun a => Fin.ext (by
    match a with
    | ⟨0, _⟩ => rfl
    | ⟨1, _⟩ => rfl)
  have ed : idx_main_v13 (idx_main_v14 (ix3 b d h)) = ix2 b d := funext fun a => Fin.ext (by
    match a with
    | ⟨0, _⟩ => rfl
    | ⟨1, _⟩ => rfl)
  rw [el, er, val_main_v7_apply, val_main_v6_apply, val_main_v5_apply, val_main_v15_apply, val_main_v14_apply,
    val_main_v13_apply, eq, ed, ref_live_q, ref_live_d]
  rfl

/-- The overlap array is the specification's. -/
theorem ref_overlap (x0 x1 : (⟨S64x256x768, .f32⟩ : BufTy).Contents (Elt Ideal))
    (x3 x4 : (⟨S64x256x4, .i32⟩ : BufTy).Contents (Elt Ideal)) :
    val_main_v16 (F := Ideal) x0 x1 x3 x4 = Cert.Scoring.overlapAll x0 x1 x3 x4 := by
  funext j
  obtain ⟨b, q, d, rfl⟩ : ∃ (b : Fin 64) (q d : Fin 256), j = ix3 b q d := ⟨j 0, j 1, j 2, eq_ix3 j⟩
  exact ref_overlap_apply x0 x1 x3 x4 b q d

end Cert.RefOverlap

end
-- ==== Proof.RefScore.lean ====
/-
  The reference program's score array, read at an index over its overlap and exact-match arrays.
-/
import proofs.«174457_j20572893348512_1_alg».proof.Proof.RefOverlap

noncomputable section

namespace Cert.RefScore

open Idealize.ShloMosaic Idealize.ShloMosaic.ValueIdx Cert.ReferenceIdeal Cert.ReferenceIdeal.Read

/-- One element of the blended array: the overlap and the exact match, each scaled by its constant, summed, times the
    document's term frequency. -/
theorem blend_apply (x0 x1 : (⟨S64x256x768, .f32⟩ : BufTy).Contents (Elt Ideal))
    (x3 x4 : (⟨S64x256x4, .i32⟩ : BufTy).Contents (Elt Ideal)) (x5 : (⟨S64x256, .i32⟩ : BufTy).Contents (Elt Ideal))
    (b : Fin 64) (q d : Fin 256) :
    val_main_v32 (F := Ideal) x0 x1 x3 x4 x5 (ix3 b q d)
      = Cert.Scoring.blended (Cert.Scoring.overlapAt x0 x1 x3 x4 b)
          (fun q d => Cert.Scoring.same (fun k => x3 (ix3 b q k)) (fun k => x4 (ix3 b d k)))
          (Cert.Scoring.freqAt x5 b) q d := by
  rw [val_main_v32_apply, val_main_v28_apply, val_main_v25_apply, val_main_v27_apply, val_main_v24_apply,
    val_main_v26_apply, val_main_cst_apply, val_main_cst_4_apply, val_main_v31_apply, val_main_v30_apply,
    val_main_v29_apply, Cert.RefOverlap.ref_overlap_apply, Cert.RefOverlap.ref_same]
  have e : idx_main_v30 (idx_main_v31 (ix3 b q d)) = ix2 b d :=
    funext fun a => Fin.ext (by match a with | ⟨0, _⟩ => rfl | ⟨1, _⟩ => rfl)
  rw [e]
  rfl

/-- A row of the blended array summed over the documents' windows. -/
theorem rowsum (x0 x1 : (⟨S64x256x768, .f32⟩ : BufTy).Contents (Elt Ideal))
    (x3 x4 : (⟨S64x256x4, .i32⟩ : BufTy).Contents (Elt Ideal)) (x5 : (⟨S64x256, .i32⟩ : BufTy).Contents (Elt Ideal))
    (b : Fin 64) (q : Fin 256) :
    val_main_v33 (F := Ideal) x0 x1 x3 x4 x5 (ix2 b q)
      = ∑ d : Fin 256, Cert.Scoring.blended (Cert.Scoring.overlapAt x0 x1 x3 x4 b)
          (fun q d => Cert.Scoring.same (fun k => x3 (ix3 b q k)) (fun k => x4 (ix3 b d k)))
          (Cert.Scoring.freqAt x5 b) q d := by
  rw [val_main_v33_apply, val_main_cst_5_apply, Ideal.ofBits_def, Ideal.ofBits_zero_f32, zero_add]
  refine Finset.sum_congr rfl fun d _ => ?_
  have e : idx_main_v33 (ix2 b q) d = ix3 b q d :=
    funext fun a => Fin.ext (by match a with | ⟨0, _⟩ => rfl | ⟨1, _⟩ => rfl | ⟨2, _⟩ => rfl)
  rw [e]
  exact blend_apply x0 x1 x3 x4 x5 b q d

/-- The document length: the term frequencies summed over the document's windows. -/
theorem doclen (x5 : (⟨S64x256, .i32⟩ : BufTy).Contents (Elt Ideal)) (b : Fin 64) (u : Fin 1) :
    val_main_v36 (F := Ideal) x5 (ix2 b u) = ∑ d : Fin 256, Cert.Scoring.freqAt x5 b d := by
  rw [val_main_v36_apply, val_main_v35_apply, val_main_cst_6_apply, Ideal.ofBits_def, Ideal.ofBits_zero_f32, zero_add]
  refine Finset.sum_congr rfl fun d _ => ?_
  have e : idx_main_v35 (idx_main_v36 (ix2 b u)) d = ix2 b d :=
    funext fun a => Fin.ext (by match a with | ⟨0, _⟩ => rfl | ⟨1, _⟩ => rfl)
  rw [e, val_main_v34_apply]
  rfl

/-- The length term of the denominator, from the document length. -/
theorem lenterm (x5 : (⟨S64x256, .i32⟩ : BufTy).Contents (Elt Ideal)) (b : Fin 64) (u : Fin 1) :
    val_main_v46 (F := Ideal) x5 (ix2 b u)
      = Cert.Scoring.cK * (Cert.Scoring.cOff
          + Ideal.div (Cert.Scoring.cLen * ∑ d : Fin 256, Cert.Scoring.freqAt x5 b d) Cert.Scoring.cAvg) := by
  rw [val_main_v46_apply, val_main_v45_apply, val_main_cst_11_apply, val_main_v44_apply, val_main_v43_apply,
    val_main_cst_10_apply, val_main_v42_apply, val_main_v41_apply, val_main_cst_9_apply, val_main_v40_apply,
    val_main_v39_apply, val_main_cst_8_apply, doclen]
  rfl

/-- The term weight of one query window. -/
theorem weight (x0 x1 : (⟨S64x256x768, .f32⟩ : BufTy).Contents (Elt Ideal))
    (x3 x4 : (⟨S64x256x4, .i32⟩ : BufTy).Contents (Elt Ideal)) (x5 : (⟨S64x256, .i32⟩ : BufTy).Contents (Elt Ideal))
    (b : Fin 64) (q : Fin 256) :
    val_main_v51 (F := Ideal) x0 x1 x3 x4 x5 (ix2 b q)
      = Cert.Scoring.termWeight
          (∑ d : Fin 256, Cert.Scoring.blended (Cert.Scoring.overlapAt x0 x1 x3 x4 b)
            (fun q d => Cert.Scoring.same (fun k => x3 (ix3 b q k)) (fun k => x4 (ix3 b d k)))
            (Cert.Scoring.freqAt x5 b) q d)
          (∑ d : Fin 256, Cert.Scoring.freqAt x5 b d) := by
  have e : idx_main_v47 (ix2 b q) = ix2 b (0 : Fin 1) :=
    funext fun a => Fin.ext (by match a with | ⟨0, _⟩ => rfl | ⟨1, _⟩ => rfl)
  rw [val_main_v51_apply, val_main_v38_apply, val_main_v37_apply, val_main_cst_7_apply, val_main_v50_apply,
    val_main_v49_apply, val_main_cst_12_apply, val_main_v48_apply, val_main_v47_apply, e, lenterm, rowsum]
  rfl

/-- The score array at batch b. -/
theorem ref_score_apply (x0 x1 : (⟨S64x256x768, .f32⟩ : BufTy).Contents (Elt Ideal)) (x2 : (⟨S64x256, .f32⟩ : BufTy).Contents (Elt Ideal))
    (x3 x4 : (⟨S64x256x4, .i32⟩ : BufTy).Contents (Elt Ideal)) (x5 : (⟨S64x256, .i32⟩ : BufTy).Contents (Elt Ideal)) (b : Fin 64) :
    val_main_v53 (F := Ideal) x0 x1 x2 x3 x4 x5 (ix1 b) = Cert.Scoring.scoreAt x0 x1 x2 x3 x4 x5 b := by
  rw [val_main_v53_apply, val_main_cst_13_apply, Ideal.ofBits_def, Ideal.ofBits_zero_f32, zero_add]
  unfold Cert.Scoring.scoreAt Cert.Scoring.scoreFrom
  refine Finset.sum_congr rfl fun q _ => ?_
  have e : idx_main_v53 (ix1 b) q = ix2 b q :=
    funext fun a => Fin.ext (by match a with | ⟨0, _⟩ => rfl | ⟨1, _⟩ => rfl)
  rw [e, val_main_v52_apply, weight]
  rfl

/-- The score array is the specification's. -/
theorem ref_score (x0 x1 : (⟨S64x256x768, .f32⟩ : BufTy).Contents (Elt Ideal)) (x2 : (⟨S64x256, .f32⟩ : BufTy).Contents (Elt Ideal))
    (x3 x4 : (⟨S64x256x4, .i32⟩ : BufTy).Contents (Elt Ideal)) (x5 : (⟨S64x256, .i32⟩ : BufTy).Contents (Elt Ideal)) :
    val_main_v53 (F := Ideal) x0 x1 x2 x3 x4 x5 = Cert.Scoring.scoreAll x0 x1 x2 x3 x4 x5 := by
  funext j
  obtain ⟨b, rfl⟩ : ∃ b : Fin 64, j = ix1 b := ⟨j 0, eq_ix1 j⟩
  exact ref_score_apply x0 x1 x2 x3 x4 x5 b

end Cert.RefScore

end
-- ==== Proof.lean ====
/-
  The kernel computes, batch by batch, a masked query-by-document overlap matrix on the matrix unit, blends it with
  the exact-match matrix of the id windows, weights it by the document term frequencies and reduces it to a
  BM25-like score; the reference computes the same two results with whole-array operations. At the extended reals
  a change of float format is the identity, so both programs are the same function of the arguments, operation by
  operation and constant by constant: no algebraic law beyond reading each operation at an index is needed, and the
  finiteness of the inputs is never used.

  The three frames are the generated ones (the reference's is its run with the results dropped); the idealized
  kernel is the kernel's own text read at the extended reals, so the sanctioned-idealization conjunct is trivial;
  the value conjunct states both runs at the
  specification's two arrays (module Scoring): the kernel's by reading each grid point's stores at an index and
  covering the result arrays by the points' blocks (module KernelArrays over BlockOverlap, BlockBlend, BlockScore),
  the reference's by reading its operations at an index (modules RefOverlap, RefScore).
-/
import proofs.«174457_j20572893348512_1_alg».proof.Defs
import proofs.«174457_j20572893348512_1_alg».proof.Proof.Gen.Kernel
import proofs.«174457_j20572893348512_1_alg».proof.Proof.Gen.Kernel.Skeleton
import proofs.«174457_j20572893348512_1_alg».proof.Proof.Gen.Kernel.Launch
import proofs.«174457_j20572893348512_1_alg».proof.Proof.Gen.Kernel.Points
import proofs.«174457_j20572893348512_1_alg».proof.Proof.Gen.Kernel.Frame
import proofs.«174457_j20572893348512_1_alg».proof.Proof.Gen.KernelIdeal
import proofs.«174457_j20572893348512_1_alg».proof.Proof.Gen.KernelIdeal.Skeleton
import proofs.«174457_j20572893348512_1_alg».proof.Proof.Gen.KernelIdeal.Launch
import proofs.«174457_j20572893348512_1_alg».proof.Proof.Gen.KernelIdeal.Points
import proofs.«174457_j20572893348512_1_alg».proof.Proof.Gen.KernelIdeal.Frame
import proofs.«174457_j20572893348512_1_alg».proof.Proof.Gen.ReferenceIdeal
import proofs.«174457_j20572893348512_1_alg».proof.Proof.Gen.ReferenceIdeal.Run
import proofs.«174457_j20572893348512_1_alg».proof.Proof.Gen.ReferenceIdeal.Read
import proofs.«174457_j20572893348512_1_alg».proof.Proof.Gen.Pre_finite_inputs
import proofs.«174457_j20572893348512_1_alg».proof.Proof.KernelArrays
import proofs.«174457_j20572893348512_1_alg».proof.Proof.RefOverlap
import proofs.«174457_j20572893348512_1_alg».proof.Proof.RefScore
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the two results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs, run from memories that agree on the arguments, end with the score array and the overlap array at
    the specification's functions of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelArrays.scoreOf m c, fun c => Cert.KernelArrays.overlapOf m c, Cert.KernelArrays.run m ρ, ?_⟩
  refine (θ_run Cert.ReferenceIdeal.defs _ _).mono (fun _ h c => ?_) (Cert.ReferenceIdeal.Value.run (F := Ideal) m' ρ')
  obtain ⟨hs, ho, hrest⟩ := h c
  obtain ⟨e0, e1, e2, e3, e4, e5⟩ := hagree c
  refine ⟨hs.trans ?_, ho.trans ?_, hrest⟩
  · rw [Cert.ReferenceIdeal.Read.val_main_v53_eq, Cert.RefScore.ref_score, e0, e1, e2, e3, e4, e5]
  · rw [Cert.ReferenceIdeal.Read.val_main_v16_eq, Cert.RefOverlap.ref_overlap, e0, e1, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
